-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x64 : Shape := ⟨2, ![128, 64]⟩
abbrev S8192 : Shape := ⟨1, ![8192]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S8192x8192 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  main_v23

def fn {F : FTy → Type} [FloatOps F] (main_arg0 : FVec F S8192x128 .f32) (main_arg1 : FVec F S128x64 .f32) (main_arg2 : FVec F S8192 .f32) (main_arg3 : FVec F S8192x8192 .f32) (main_arg4 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_v13 main_v16
-- ==== Kernel.lean ====
abbrev S8192x128 : Shape := ⟨2, ![8192, 128]⟩
abbrev S128x64 : Shape := ⟨2, ![128, 64]⟩
abbrev S8192 : Shape := ⟨1, ![8192]⟩
abbrev S8192x8192 : Shape := ⟨2, ![8192, 8192]⟩
abbrev S8192x64 : Shape := ⟨2, ![8192, 64]⟩
abbrev S1024x128 : Shape := ⟨2, ![1024, 128]⟩
abbrev S1024x64 : Shape := ⟨2, ![1024, 64]⟩
abbrev S8192x1 : Shape := ⟨2, ![8192, 1]⟩
abbrev S1024x2048 : Shape := ⟨2, ![1024, 2048]⟩
abbrev S2048x64 : Shape := ⟨2, ![2048, 64]⟩
abbrev S1024x1 : Shape := ⟨2, ![1024, 1]⟩

abbrev nBuf : Space → Nat
  | .hbm => 9
  | .vmem => 21
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S8192, .f32⟩
  | .hbm, ⟨3, _⟩ => ⟨S8192x8192, .f32⟩
  | .hbm, ⟨4, _⟩ => ⟨S8192x8192, .f32⟩
  | .hbm, ⟨5, _⟩ => ⟨S8192x64, .f32⟩
  | .hbm, ⟨6, _⟩ => ⟨S8192x1, .f32⟩
  | .hbm, ⟨7, _⟩ => ⟨S8192x64, .f32⟩
  | .hbm, ⟨8, _⟩ => ⟨S8192x64, .f32⟩
  | .local _ .vmem, ⟨0, _⟩ => ⟨S1024x128, .f32⟩
  | .local _ .vmem, ⟨1, _⟩ => ⟨S1024x128, .f32⟩
  | .local _ .vmem, ⟨2, _⟩ => ⟨S128x64, .f32⟩
  | .local _ .vmem, ⟨3, _⟩ => ⟨S1024x64, .f32⟩
  | .local _ .vmem, ⟨4, _⟩ => ⟨S1024x64, .f32⟩
  | .local _ .vmem, ⟨5, _⟩ => ⟨S1024x2048, .f32⟩
  | .local _ .vmem, ⟨6, _⟩ => ⟨S1024x2048, .f32⟩
  | .local _ .vmem, ⟨7, _⟩ => ⟨S2048x64, .f32⟩
  | .local _ .vmem, ⟨8, _⟩ => ⟨S2048x64, .f32⟩
  | .local _ .vmem, ⟨9, _⟩ => ⟨S1024x1, .f32⟩
  | .local _ .vmem, ⟨10, _⟩ => ⟨S1024x1, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x2048, .f32⟩
  | .local _ .vmem, ⟨15, _⟩ => ⟨S1024x2048, .f32⟩
  | .local _ .vmem, ⟨16, _⟩ => ⟨S2048x64, .f32⟩
  | .local _ .vmem, ⟨17, _⟩ => ⟨S2048x64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1024x64_S1024x64_0_0 : ∀ a, (![0, 0] : Fin 2 → Nat) a + S1024x64.size a ≤ S1024x64.size a
  h_S1024x64 : 0 < S1024x64.numel
  shapeCasts_S8192_S8192x1 : S8192.ShapeCasts S8192x1
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  dot_S1024x128_S128x64_S1024x64_1_0_0_1_n_n_wf : DotDims.WF S1024x128 S128x64 S1024x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S8192x64.size a
  hwx1_3 : ∀ i : grid1.Coords, EltTy.bits .f32 = 32 ∨ (Rect.block (s := S8192x64) S1024x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .f32 = 32 ∨ (Rect.block (s := S8192x64) S1024x64.size (cc2_transform_2 i) (hinb2_2 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg4) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg3) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S128x64 : Shape := ⟨2, ![128, 64]⟩
abbrev S8192 : Shape := ⟨1, ![8192]⟩
abbrev S8192x8192 : Shape := ⟨2, ![8192, 8192]⟩
abbrev S8192x64 : Shape := ⟨2, ![8192, 64]⟩
abbrev S1x8192 : Shape := ⟨2, ![1, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x64, .f32⟩
  | .hbm, ⟨2, _⟩ => ⟨S8192, .f32⟩
  | .hbm, ⟨3, _⟩ => ⟨S8192x8192, .f32⟩
  | .hbm, ⟨4, _⟩ => ⟨S8192x8192, .f32⟩
  | .hbm, ⟨5, _⟩ => ⟨S8192x64, .f32⟩
  | .hbm, ⟨6, _⟩ => ⟨S8192x64, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Kernel.Region0.lean ====
/- REGION 0's half of the frame of the kernel program, at any float instance: the first pallas_call
   (a blockwise product of a row block of the features with the whole weight), stated at a parameter
   of region-entry contents. -/
import proofs.«141350_j68341519613981_1_alg».proof.Proof.Gen.Kernel.Launch
import proofs.«141350_j68341519613981_1_alg».proof.Proof.Gen.Kernel.Skeleton
import proofs.«141350_j68341519613981_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features window's current staging buffer holds its block at every point, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight at every point, fetched there (the first
    point) or not (every later one: its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S1024x128 := Rect.unit (s := S1024x128) ![0, 0] S1024x128.size inb_S1024x128_S1024x128_0_0
abbrev r0_1 : Rect S128x64 := Rect.unit (s := S128x64) ![0, 0] S128x64.size inb_S128x64_S128x64_0_0
abbrev r0_2 : Rect S1024x64 := Rect.unit (s := S1024x64) ![0, 0] S1024x64.size inb_S1024x64_S1024x64_0_0

/-! ## What the body leaves in the output window's buffer -/

/-- The output's staging buffer after the body, from the two input blocks: its one store, of the product
    of the (rounded) features block with the (rounded) weight, over the whole buffer. -/
def out0_2 (x0 : Vec F S1024x128 .f32) (x1 : Vec F S128x64 .f32) : Vec F S1024x64 .f32 :=
  View.canon [⟨r0_2, k0_pay1 (View.ld x0 r0_0) (View.ld x1 r0_1)⟩]

/-- The store's rectangle is the whole buffer, so it covers it. -/
theorem cover0_2 (p0 : Vec F S1024x64 .f32) (y : S1024x64.Idx) :
    ∃ pc ∈ ([⟨r0_2, p0⟩] : List (View.Piece (Elt F) S1024x64 .f32)), y ∈ pc.1.set :=
  View.cover_of_tiled [⟨r0_2, p0⟩] S1024x64.size (by rfl) y

/-! ## The pipeline's proof data -/

/-- The proof data of the first pipeline on core c: the arrays as the region finds them; after the body at
    point t each input's buffer at its block and the output's at the product of the two; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel body on whole staging memrefs, the inputs' at read contents and the output's at anything, runs
    to the continuation holding the inputs' as they were and the output's at the product of the two: the
    body reads both inputs whole, reads the output's buffer (a value it never uses) and overwrites it whole. -/
theorem sound_kernel0 (c : Dev nD) (E : Set ℕ) (i : grid0.Coords)
    (arg1 : Memref sig .tc .vmem S1024x128 .f32) (harg1 : arg1.IsWhole)
    (arg2 : Memref sig .tc .vmem S128x64 .f32) (harg2 : arg2.IsWhole)
    (arg3 : Memref sig .tc .vmem S1024x64 .f32) (harg3 : arg3.IsWhole)
    (x0 : Vec F S1024x128 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Region1.Base.lean ====
/-
  Region 1 of the program (the second kernel: S = diag(f) · (B · T), B cut into blocks [1024, 2048] at (i, k), T into
  blocks [2048, 64] at (k, 0), the filter column into blocks [1024, 1] at (i, 0), the result into blocks [1024, 64] at
  (i, 0)), on its grid of 8 × 4 points, point t at i = t / 4, k = t % 4: what the body shares between its three control
  cases. The kernel keeps a [1024, 64] accumulator in a scratch buffer of its own across the four points of a row
  block: it is reset to zero where k = 0 (case A), gains the product of the point's two blocks at every point, and is
  scaled by the filter column and stored to the result's block where k = 3 (case C); at k = 1, 2 (case B) it only
  accumulates. The result's block is idle, and not written back, except at k = 3.
  Everything is stated for any float instance, at a parameter V: the buffers' contents when the region is entered.
-/
import proofs.«141350_j68341519613981_1_alg».proof.Proof.Gen.Kernel.Launch
import proofs.«141350_j68341519613981_1_alg».proof.Proof.Gen.Kernel.Skeleton
import proofs.«141350_j68341519613981_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "k = 0": the reset of the accumulator is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the result's block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the result's window, through which its contents are stated. -/
abbrev VO1_3 : View sig .tc .vmem S1024x64 .f32 := (Memref.whole cc1_stg3_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x64 .f32 := Memref.whole cc1_scratch0
abbrev VS1_0 : View sig .tc .vmem S1024x64 .f32 := scM1_0.view

/-- What the region's invariant holds besides the windows: the other scoped buffers at anything, the accumulator owned
    at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, owns_whole]; try rfl

end Cert.Kernel.Fr

end
-- ==== Proof.Kernel.Region1.RunA.lean ====
/-
  Region 1, case A (k = 0): the accumulator is reset, then gains the product of the point's two blocks; the result's
  block is left untouched. The body's run on whole memrefs; the pieces the accumulator ends with are found by the run.
-/
import proofs.«141350_j68341519613981_1_alg».proof.Proof.Kernel.Region1.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A's run: the inputs at their blocks, the result's buffer handed back as found, the accumulator at anything; it
    ends with the accumulator's pieces written. -/
noncomputable def kernelRun1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1024x1 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_kernel i arg2 harg2 arg3 harg3 arg4 harg4 arg5 harg5 arg6 harg6) K } := by
  refine ⟨[], ?_, fun xi3 E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.Kernel.Region1.RunB.lean ====
/-
  Region 1, case B (k = 1, 2): the accumulator, at what the point before left, gains the product of the point's two
  blocks; the result's block is left untouched.
-/
import proofs.«141350_j68341519613981_1_alg».proof.Proof.Kernel.Region1.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B's run: the accumulator enters at `xs0`. -/
noncomputable def kernelRun1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1024x1 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_kernel i arg2 harg2 arg3 harg3 arg4 harg4 arg5 harg5 arg6 harg6) K } := by
  refine ⟨[], ?_, fun xi3 E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.Kernel.Region1.RunC.lean ====
/-
  Region 1, case C (k = 3): the accumulator gains the last product, and scaled by the filter column it is stored to
  the result's block.
-/
import proofs.«141350_j68341519613981_1_alg».proof.Proof.Kernel.Region1.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C's run: the result's buffer at anything, left with its pieces written. -/
noncomputable def kernelRun1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_kernel i arg2 harg2 arg3 harg3 arg4 harg4 arg5 harg5 arg6 harg6) K } := by
  refine ⟨?_, ?_, fun E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.Kernel.Region1.Data.lean ====
/-
  Region 1, assembled: what the result's staging buffer and the accumulator hold after each grid point (by recursion on the
  point: the case the point is in, run on the point's blocks, the accumulator entering at what the point before left),
  the region's proof data, and the body obligation at every point.
-/
import proofs.«141350_j68341519613981_1_alg».proof.Proof.Kernel.Region1.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the result's block (idle there and not written back): a placeholder nothing consults. -/
def out1_A_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1024x1 .f32) : Vec F S1024x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1024x1 .f32) (y : S1024x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x64.size (by sl_kernel_rfl) y

/-- What case A leaves in the accumulator. -/
def sout1_A_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1024x1 .f32) : Vec F S1024x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the result's block (idle there and not written back): a placeholder nothing consults. -/
def out1_B_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1024x1 .f32) (xs0 : Vec F S1024x64 .f32) : Vec F S1024x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1024x1 .f32) (xs0 : Vec F S1024x64 .f32) (y : S1024x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x64.size (by sl_kernel_rfl) y

/-- What case B leaves in the accumulator. -/
def sout1_B_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1024x1 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store covers the result's block. -/
theorem cover1_C_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) (y : S1024x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x64.size (by sl_kernel_rfl) y

/-- What case C leaves in the result's staging buffer. -/
def out1_C_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) : Vec F S1024x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the accumulator cover it. -/
theorem scover1_C_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) (y : S1024x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x64.size (by sl_kernel_rfl) y

/-- What case C leaves in the accumulator. -/
def sout1_C_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the buffers hold after each point -/

/-- After the body at position n: (the result's staging buffer, the accumulator). -/
def outsAt1 (c : Dev nD) : (n : ℕ) → n < cfg1.N → Vec F S1024x64 .f32 × Vec F S1024x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the scoped buffers at anything; afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.Kernel.Fr

end
-- ==== Proof.Kernel.Region1.Body.lean ====
/-
  Region 1: the body obligation at every grid point. The closed forms of the two branch conditions say which of the three
  cases a point is in; the case's run is handed the inputs at their blocks and the accumulator at what the point
  before left (at anything at the region's first point, and where the case resets it), and gives the accumulator back at
  the point's contents.
-/
import proofs.«141350_j68341519613981_1_alg».proof.Proof.Kernel.Region1.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨R0, R1, R2, R3, R4, HS0, R6, R7, R8, R9, R10, R11, R12⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg R0 R1 R2 R3 R4 R6 R7 R8 R9 R10 R11 R12]
        · isplitl [HS0 R0 R1 R2 R3 R4 R6 R7 R8 R9 R10 R11 R12]
          · isplitl [R0]; · iexact R0
            isplitl [R1]; · iexact R1
            isplitl [R2]; · iexact R2
            isplitl [R3]; · iexact R3
            isplitl [R4]; · iexact R4
            isplitl [HS0]
            · unfold owns; iexists _; isplitr
              swap; · iexact HS0
              ipureintro; exact View.read_writes_of_cover _ _ _ _ _ (scover1_A_0 c _ _ _ _ _ _ _ _ _ _ _ _ _ _ _ _)
            isplitl [R6]; · iexact R6
            isplitl [R7]; · iexact R7
            isplitl [R8]; · iexact R8
            isplitl [R9]; · iexact R9
            isplitl [R10]; · iexact R10
            isplitl [R11]; · iexact R11
            iexact R12
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨R0, R1, R2, R3, R4, HS0, R6, R7, R8, R9, R10, R11, R12⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg R0 R1 R2 R3 R4 R6 R7 R8 R9 R10 R11 R12]
        · isplitl [HS0 R0 R1 R2 R3 R4 R6 R7 R8 R9 R10 R11 R12]
          · isplitl [R0]; · iexact R0
            isplitl [R1]; · iexact R1
            isplitl [R2]; · iexact R2
            isplitl [R3]; · iexact R3
            isplitl [R4]; · iexact R4
            isplitl [HS0]
            · unfold owns; iexists _; isplitr
              swap; · iexact HS0
              ipureintro; exact View.read_writes_of_cover _ _ _ _ _ (scover1_A_0 c _ _ _ _ _ _ _ _ _ _ _ _ _ _ _ _)
            isplitl [R6]; · iexact R6
            isplitl [R7]; · iexact R7
            isplitl [R8]; · iexact R8
            isplitl [R9]; · iexact R9
            isplitl [R10]; · iexact R10
            isplitl [R11]; · iexact R11
            iexact R12
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨R0, R1, R2, R3, R4, HS0, R6, R7, R8, R9, R10, R11, R12⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg R0 R1 R2 R3 R4 R6 R7 R8 R9 R10 R11 R12]
      · isplitl [HS0 R0 R1 R2 R3 R4 R6 R7 R8 R9 R10 R11 R12]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_C_0 c _ _ _ _ _ _ _ _ _ _ _ _ _ _ _ _ _)
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨R0, R1, R2, R3, R4, HS0, R6, R7, R8, R9, R10, R11, R12⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg R0 R1 R2 R3 R4 R6 R7 R8 R9 R10 R11 R12]
      · isplitl [HS0 R0 R1 R2 R3 R4 R6 R7 R8 R9 R10 R11 R12]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_B_0 c _ _ _ _ _ _ _ _ _ _ _ _ _ _ _ _ _)
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      iexists _; iexact H3

/-- The body obligation of region 1's pipeline, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped buffers back at anything: the accumulator's contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, HS0, R6, R7, R8, R9, R10, R11, R12⟩, Hg⟩
  isplitl [HS0 R0 R1 R2 R3 R4 R6 R7 R8 R9 R10 R11 R12]
  · isplitl [R0]; · iexact R0
    isplitl [R1]; · iexact R1
    isplitl [R2]; · iexact R2
    isplitl [R3]; · iexact R3
    isplitl [R4]; · iexact R4
    isplitl [HS0]
    · iexists _; iexact HS0
    isplitl [R6]; · iexact R6
    isplitl [R7]; · iexact R7
    isplitl [R8]; · iexact R8
    isplitl [R9]; · iexact R9
    isplitl [R10]; · iexact R10
    isplitl [R11]; · iexact R11
    iexact R12
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.Kernel.Fr

end
-- ==== Proof.Kernel.Region2.Runs.lean ====
/- REGION 2 of @main (custom_call 2, the accumulating matrix product out = wavelets · scaled): what the three
   control cases of its body share. The body sees a block [1024,2048] of the left factor at (i,k), a block
   [2048,64] of the right factor at (k,0), the output block [1024,64] at (i,0) and one accumulator [1024,64]
   carried from grid point to grid point: the accumulator is zeroed where k = 0, gains the product of the two
   blocks at every point, and is copied to the output block where k = 3. Here: the windows' blocks read off the
   arrays as the region finds them (a parameter `V`), the two branch conditions in closed form over the 32
   points, where the output window is idle, the memrefs the body is called with, and the region invariant with
   the accumulator singled out of the core's scoped buffers. -/
import proofs.«141350_j68341519613981_1_alg».proof.Proof.Gen.Kernel.Launch
import proofs.«141350_j68341519613981_1_alg».proof.Proof.Gen.Kernel.Skeleton
import proofs.«141350_j68341519613981_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- rectangles of the blocks' extents: membership recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is an input, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's branch conditions -/

/-- The condition of the body's first conditional (zero the accumulator), from the grid coordinates: k = 0. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second conditional (copy the accumulator out), from the grid coordinates: k = 3. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Windows 0 and 1 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
/-- Where k = 0 the output window is idle (nothing is stored into it) and is not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- Where k is 1 or 2 likewise. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- Where k = 3 the output window is live: the body stores into it. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated (the choice does not matter). -/
abbrev VO2_2 : View sig .tc .vmem S1024x64 .f32 := (Memref.whole cc2_stg2_0 : Memref sig .tc .vmem S1024x64 .f32).view
/-- Each window's current staging memref at point `t`, and its wholeness. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows, -/
abbrev scM2_0 : Memref sig .tc .vmem S1024x64 .f32 := Memref.whole cc2_scratch0
/-- and as a view: what it holds is stated through it. -/
abbrev VS2_0 : View sig .tc .vmem S1024x64 .f32 := scM2_0.view

/-! ## The region invariant with the accumulator singled out -/

/-- The core's scoped buffers that are no staging buffer of this call, split at the accumulator: its points-to at
    some contents, and every other one (the other calls' staging buffers and accumulator) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The others, carried unopened through every point. -/
abbrev others2 (c : Dev nD) : sProp 𝕄 :=
  Pipeline.scopedRestBut (Ix := Unit) (Name := ℕ) (U := UR sig nD τ) (Lvl := ℕ) (Val := Elt F) spec2 c [cc2_scratch0]

/-- What the launch hands the region, with the accumulator as a memref owned at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA; rw [scopedRest2_split]; simp only [scM2_0, owns_whole]; try rfl

end Cert.Kernel.Fr

end
-- ==== Proof.Kernel.Region2.RunA.lean ====
/- REGION 2, case A of its body (k = 0: the accumulator is zeroed, then gains the product; nothing is copied
   out): the body's triple on any whole staging memrefs, the pieces its stores leave in the accumulator
   being the witness. -/
import proofs.«141350_j68341519613981_1_alg».proof.Proof.Kernel.Region2.Runs

-- rectangles of the blocks' extents: membership recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first conditional taken, second not). On whole memrefs — the inputs' at their contents `x0`, `x1`, the
    output's at contents `xi2` handed back untouched, the accumulator at anything — the body runs to the
    continuation holding the inputs' and the output's as they were and the accumulator with the pieces `LS0`
    written: zero, then zero plus the product of the blocks. -/
noncomputable def kernelRun2_A (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond2_0 i) (hc1 : ¬cond2_1 i)
    (x0 : Vec F S1024x2048 .f32) (x1 : Vec F S2048x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_acc_kernel i arg2 harg2 arg3 harg3 arg4 harg4 arg5 harg5) K } := by
  refine ⟨[], ?_, fun xi2 E K => ?run⟩
  case run =>
    simp only [cc2__matmul_acc_kernel_eq_skeleton]; unfold cc2__matmul_acc_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Kernel.Region2.RunB.lean ====
/- REGION 2, case B of its body (k = 1 or 2: the accumulator gains the product; nothing is zeroed, nothing is
   copied out): the body's triple on any whole staging memrefs, the pieces its store leaves in the
   accumulator being the witness. -/
import proofs.«141350_j68341519613981_1_alg».proof.Proof.Kernel.Region2.RunA

-- rectangles of the blocks' extents: membership recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (neither conditional taken). On whole memrefs — the inputs' at their contents `x0`, `x1`, the output's
    at contents `xi2` handed back untouched, the accumulator at what the point before left, `xs0` — the body runs
    to the continuation holding the inputs' and the output's as they were and the accumulator with the pieces
    `LS0` written: `xs0` plus the product of the blocks. -/
noncomputable def kernelRun2_B (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : ¬cond2_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_acc_kernel i arg2 harg2 arg3 harg3 arg4 harg4 arg5 harg5) K } := by
  refine ⟨[], ?_, fun xi2 E K => ?run⟩
  case run =>
    simp only [cc2__matmul_acc_kernel_eq_skeleton]; unfold cc2__matmul_acc_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Kernel.Region2.RunC.lean ====
/- REGION 2, case C of its body (k = 3: the accumulator gains the product and is copied to the output block):
   the body's triple on any whole staging memrefs, the pieces its stores leave in the output's buffer and in
   the accumulator being the witness. -/
import proofs.«141350_j68341519613981_1_alg».proof.Proof.Kernel.Region2.RunB

-- rectangles of the blocks' extents: membership recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (first conditional not taken, second taken). On whole memrefs — the inputs' at their contents `x0`,
    `x1`, the output's at anything, the accumulator at what the point before left, `xs0` — the body runs to the
    continuation holding the inputs' as they were, the accumulator with the pieces `LS0` written (`xs0` plus the
    product of the blocks) and the output's buffer with the pieces `L2` written (that sum). -/
noncomputable def kernelRun2_C (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_acc_kernel i arg2 harg2 arg3 harg3 arg4 harg4 arg5 harg5) K } := by
  refine ⟨?_, ?_, fun E K => ?run⟩
  case run =>
    simp only [cc2__matmul_acc_kernel_eq_skeleton]; unfold cc2__matmul_acc_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.Kernel.Region2.Data.lean ====
/- REGION 2 of @main (custom_call 2, the accumulating matrix product out = wavelets · scaled), at a parameter `V`
   of entry contents: what the output window's buffer and the accumulator hold per control case and point by point
   (`outsAt2`), the region invariant with the accumulator at those contents (`PhiS2`), and the proof data (`dat2`).
   The cases' runs are in Region2/RunA … RunC, what they share in Region2/Runs. -/
import proofs.«141350_j68341519613981_1_alg».proof.Proof.Kernel.Region2.RunC

-- rectangles of the blocks' extents: membership recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A (k = 0) stores nothing into the output window (idle at its points and not written back there):
    no pieces — a placeholder that nothing consults. -/
def out2_A_2 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond2_0 i) (hc1 : ¬cond2_1 i)
    (x0 : Vec F S1024x2048 .f32) (x1 : Vec F S2048x64 .f32) : Vec F S1024x64 .f32 :=
  VO2_2.read (Elt F) (VO2_2.writes (Elt F) VO2_2.junk (kernelRun2_A c i arg2 harg2 arg3 harg3 arg4 harg4 arg5 harg5 hc0 hc1 x0 x1).1)

/-- Case A's pieces for the accumulator tile it (whole stores), so they cover it. -/
theorem scover2_A_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond2_0 i) (hc1 : ¬cond2_1 i)
    (x0 : Vec F S1024x2048 .f32) (x1 : Vec F S2048x64 .f32) (y : S1024x64.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x64.size (by sl_kernel_rfl) y

/-- What case A leaves in the accumulator: its pieces read back. -/
def sout2_A_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond2_0 i) (hc1 : ¬cond2_1 i)
    (x0 : Vec F S1024x2048 .f32) (x1 : Vec F S2048x64 .f32) : Vec F S1024x64 .f32 :=
  VS2_0.read (Elt F) (VS2_0.writes (Elt F) VS2_0.junk (kernelRun2_A c i arg2 harg2 arg3 harg3 arg4 harg4 arg5 harg5 hc0 hc1 x0 x1).2.1)

/-- Case B (k = 1 or 2) stores nothing into the output window (idle at its points and not written back there):
    no pieces — a placeholder that nothing consults. -/
def out2_B_2 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : ¬cond2_1 i)
    (x0 : Vec F S1024x2048 .f32) (x1 : Vec F S2048x64 .f32) (xs0 : Vec F S1024x64 .f32) : Vec F S1024x64 .f32 :=
  VO2_2.read (Elt F) (VO2_2.writes (Elt F) VO2_2.junk (kernelRun2_B c i arg2 harg2 arg3 harg3 arg4 harg4 arg5 harg5 hc0 hc1 x0 x1 xs0).1)

/-- Case B's pieces for the accumulator tile it (whole stores), so they cover it. -/
theorem scover2_B_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : ¬cond2_1 i)
    (x0 : Vec F S1024x2048 .f32) (x1 : Vec F S2048x64 .f32) (xs0 : Vec F S1024x64 .f32) (y : S1024x64.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x64.size (by sl_kernel_rfl) y

/-- What case B leaves in the accumulator: its pieces read back. -/
def sout2_B_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : ¬cond2_1 i)
    (x0 : Vec F S1024x2048 .f32) (x1 : Vec F S2048x64 .f32) (xs0 : Vec F S1024x64 .f32) : Vec F S1024x64 .f32 :=
  VS2_0.read (Elt F) (VS2_0.writes (Elt F) VS2_0.junk (kernelRun2_B c i arg2 harg2 arg3 harg3 arg4 harg4 arg5 harg5 hc0 hc1 x0 x1 xs0).2.1)

/-- Case C's pieces for the output window tile its block (one whole store), so they cover it. -/
theorem cover2_C_2 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) (y : S1024x64.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x64.size (by sl_kernel_rfl) y

/-- What case C leaves in the output window's staging buffer: its pieces read back. -/
def out2_C_2 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) : Vec F S1024x64 .f32 :=
  VO2_2.read (Elt F) (VO2_2.writes (Elt F) VO2_2.junk (kernelRun2_C c i arg2 harg2 arg3 harg3 arg4 harg4 arg5 harg5 hc0 hc1 x0 x1 xs0).1)

/-- Case C's pieces for the accumulator tile it (whole stores), so they cover it. -/
theorem scover2_C_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) (y : S1024x64.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x64.size (by sl_kernel_rfl) y

/-- What case C leaves in the accumulator: its pieces read back. -/
def sout2_C_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) : Vec F S1024x64 .f32 :=
  VS2_0.read (Elt F) (VS2_0.writes (Elt F) VS2_0.junk (kernelRun2_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## What the output window's buffer and the accumulator hold after each point -/

/-- THE ACCUMULATION. What the output window's staging buffer and the accumulator hold after the body at position
    `n` (a pair: the output's buffer, then the accumulator): the case the closed forms select at `n`, run at the
    point's memrefs and input blocks, the accumulator at what this leaves at `n - 1`. No point meets both
    conditions (`False.elim`). -/
def outsAt2 (c : Dev nD) : (n : ℕ) → n < cfg2.N → Vec F S1024x64 .f32 × Vec F S1024x64 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region (every
    scoped buffer at anything); afterwards the accumulator at what the point before left in it (`outsAt2`'s second
    component), the other scoped buffers unopened, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Region

end Cert.Kernel.Fr

end
-- ==== Proof.Kernel.Region2.Body.lean ====
/- REGION 2 of @main (custom_call 2, the accumulating matrix product out = wavelets · scaled), at a parameter `V`
   of entry contents: the body obligation of its proof data (`body_obligation2`) — at each point the case's run
   between the invariant before and after —, and the invariant's two ends (`hin2`, `hout2`). -/
import proofs.«141350_j68341519613981_1_alg».proof.Proof.Kernel.Region2.Data

-- rectangles of the blocks' extents: membership recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in;
    the case's run applies; the invariant hands the body the accumulator at what the point before left (at anything
    at the first point) and takes it back at this point's contents, the other scoped buffers and the generator
    register passing through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Region

end Cert.Kernel.Fr

end
-- ==== Proof.Kernel.Run.lean ====
/-
  The whole program: @main is region 0 (T = x · w), the host reshape of the filter to a column, region 1
  (S = diag(f) · (B · T)) and region 2 (A · S), in that order. The contents of every unscoped buffer at each boundary are
  folded from the launch memory: a region leaves its arrays at what its pipeline writes back and everything else as it
  was, the host stretch writes its one result. Every weakly fair execution terminates with every unscoped buffer at the
  last boundary's contents; read at the arguments this gives the frame, read at the result it names the result's array.
  Stated for any float instance.
-/
import proofs.«141350_j68341519613981_1_alg».proof.Proof.Kernel.Region0
import proofs.«141350_j68341519613981_1_alg».proof.Proof.Kernel.Region1.Body
import proofs.«141350_j68341519613981_1_alg».proof.Proof.Kernel.Region2.Body
import proofs.«141350_j68341519613981_1_alg».proof.Proof.Gen.Kernel.Regions
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what the pipeline leaves (an input as entered, the result's write-backs folded), every other
    buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host reshape. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1: its arrays at what the pipeline leaves (an input as entered, the result's write-backs folded), every other
    buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After region 2: its arrays at what the pipeline leaves (an input as entered, the result's write-backs folded), every other
    buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched: no host operation writes one, and a region reads it through an input window or
    bypasses it -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 1).trans (((dat0 (V0 m) c).arrAt_in 1 rfl _).trans (A_eq0 (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 0).trans (((dat2 (V3 m) c).arrAt_in 0 rfl _).trans (A_eq2 (V3 m) c 0))
    _ = W2 m c (Proc.devRef .tc main_arg3) := W3_of_ne m c main_arg3 (by decide)
    _ = W1 m c (Proc.devRef .tc main_arg3) := StableHlo.after_of_writes_sub hostOps1 _ hostOps1_writes (r := main_arg3) (by decide)
    _ = W0 m c (Proc.devRef .tc main_arg3) := W1_of_ne m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := (W3_arr m c 0).trans (((dat1 (V2 m) c).arrAt_in 0 rfl _).trans (A_eq1 (V2 m) c 0))
    _ = W1 m c (Proc.devRef .tc main_arg4) := StableHlo.after_of_writes_sub hostOps1 _ hostOps1_writes (r := main_arg4) (by decide)
    _ = W0 m c (Proc.devRef .tc main_arg4) := W1_of_ne m c main_arg4 (by decide)
    _ = m ((c : Thread nD τ).loc main_arg4) := rfl

/-! ## The proof data of the three pipelines and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at its contents before the region, left with them at the
    contents after it; its arrays are split out of the unscoped buffers at entry and put back at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at its contents before the region, left with them at the
    contents after it; its arrays are split out of the unscoped buffers at entry and put back at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V2 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := hout1 (V2 m) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at its contents before the region, left with them at the
    contents after it; its arrays are split out of the unscoped buffers at entry and put back at exit; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m 2 c).Φ 0 := hin2 (V3 m) c
    unfold Pipeline.ΦA at h
    iintro ⟨Hp, -, Hr⟩
    iapply h
    isplitl [Hr]; · iexact Hr
    iexact Hp
  hout c := by
    rw [Pipeline.ownSems0_none]
    have h : (pdats m 2 c).Φ (Fin.last _) ⊢ Pipeline.ΦA spec2 c := hout2 (V3 m) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m) ]
theorem main_run (c : Dev nD) : main (F := F) c = Pipeline.Seg.run (segs m) := (main_chain c).trans (by chain_rfl)

set_option backward.isDefEq.respectTransparency.types false in
/-- THE RUN. From any memory with zero counters, every weakly fair execution of @main terminates, nothing faulting, and
    every final state holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- The run with the result's array named: it ends at what region 2's pipeline leaves in its result window's array. -/
theorem run_named (ρ : Dev nD → PrngReg) : θ_run defs (onTc (τ := τ) (main (F := F))) ⟨m, fun _ => 0, ρ⟩ (fun r => ∀ c : Dev nD,
      r.2.mem ((c.tc : Thread nD τ).loc main_v3) = (dat2 (V3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W4_arr m c 2),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.Kernel.Fr

end
-- ==== Proof.KernelIdeal.Region0.lean ====
/- REGION 0's half of the frame of the kernel program, at any float instance: the first pallas_call
   (a blockwise product of a row block of the features with the whole weight), stated at a parameter
   of region-entry contents. -/
import proofs.«141350_j68341519613981_1_alg».proof.Proof.Gen.KernelIdeal.Launch
import proofs.«141350_j68341519613981_1_alg».proof.Proof.Gen.KernelIdeal.Skeleton
import proofs.«141350_j68341519613981_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The features window's current staging buffer holds its block at every point, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight at every point, fetched there (the first
    point) or not (every later one: its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_0 : Rect S1024x128 := Rect.unit (s := S1024x128) ![0, 0] S1024x128.size inb_S1024x128_S1024x128_0_0
abbrev r0_1 : Rect S128x64 := Rect.unit (s := S128x64) ![0, 0] S128x64.size inb_S128x64_S128x64_0_0
abbrev r0_2 : Rect S1024x64 := Rect.unit (s := S1024x64) ![0, 0] S1024x64.size inb_S1024x64_S1024x64_0_0

/-! ## What the body leaves in the output window's buffer -/

/-- The output's staging buffer after the body, from the two input blocks: its one store, of the product
    of the (rounded) features block with the (rounded) weight, over the whole buffer. -/
def out0_2 (x0 : Vec F S1024x128 .f32) (x1 : Vec F S128x64 .f32) : Vec F S1024x64 .f32 :=
  View.canon [⟨r0_2, k0_pay1 (View.ld x0 r0_0) (View.ld x1 r0_1)⟩]

/-- The store's rectangle is the whole buffer, so it covers it. -/
theorem cover0_2 (p0 : Vec F S1024x64 .f32) (y : S1024x64.Idx) :
    ∃ pc ∈ ([⟨r0_2, p0⟩] : List (View.Piece (Elt F) S1024x64 .f32)), y ∈ pc.1.set :=
  View.cover_of_tiled [⟨r0_2, p0⟩] S1024x64.size (by rfl) y

/-! ## The pipeline's proof data -/

/-- The proof data of the first pipeline on core c: the arrays as the region finds them; after the body at
    point t each input's buffer at its block and the output's at the product of the two; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple -/

set_option maxHeartbeats 1000000 in
/-- The kernel body on whole staging memrefs, the inputs' at read contents and the output's at anything, runs
    to the continuation holding the inputs' as they were and the output's at the product of the two: the
    body reads both inputs whole, reads the output's buffer (a value it never uses) and overwrites it whole. -/
theorem sound_kernel0 (c : Dev nD) (E : Set ℕ) (i : grid0.Coords)
    (arg1 : Memref sig .tc .vmem S1024x128 .f32) (harg1 : arg1.IsWhole)
    (arg2 : Memref sig .tc .vmem S128x64 .f32) (harg2 : arg2.IsWhole)
    (arg3 : Memref sig .tc .vmem S1024x64 .f32) (harg3 : arg3.IsWhole)
    (x0 : Vec F S1024x128 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__transform_kernel i arg1 harg1 arg2 harg2 arg3 harg3) K := by
  simp only [cc0__transform_kernel_eq_skeleton]; unfold cc0__transform_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Region1.Base.lean ====
/-
  Region 1 of the program (the second kernel: S = diag(f) · (B · T), B cut into blocks [1024, 2048] at (i, k), T into
  blocks [2048, 64] at (k, 0), the filter column into blocks [1024, 1] at (i, 0), the result into blocks [1024, 64] at
  (i, 0)), on its grid of 8 × 4 points, point t at i = t / 4, k = t % 4: what the body shares between its three control
  cases. The kernel keeps a [1024, 64] accumulator in a scratch buffer of its own across the four points of a row
  block: it is reset to zero where k = 0 (case A), gains the product of the point's two blocks at every point, and is
  scaled by the filter column and stored to the result's block where k = 3 (case C); at k = 1, 2 (case B) it only
  accumulates. The result's block is idle, and not written back, except at k = 3.
  Everything is stated for any float instance, at a parameter V: the buffers' contents when the region is entered.
-/
import proofs.«141350_j68341519613981_1_alg».proof.Proof.Gen.KernelIdeal.Launch
import proofs.«141350_j68341519613981_1_alg».proof.Proof.Gen.KernelIdeal.Skeleton
import proofs.«141350_j68341519613981_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "k = 0": the reset of the accumulator is taken. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "k = 3": the result's block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The memrefs the body is called with -/

/-- One staging buffer of the result's window, through which its contents are stated. -/
abbrev VO1_3 : View sig .tc .vmem S1024x64 .f32 := (Memref.whole cc1_stg3_0 : Memref sig .tc .vmem S1024x64 .f32).view
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x64 .f32 := Memref.whole cc1_scratch0
abbrev VS1_0 : View sig .tc .vmem S1024x64 .f32 := scM1_0.view

/-- What the region's invariant holds besides the windows: the other scoped buffers at anything, the accumulator owned
    at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, owns_whole]; try rfl

end Cert.KernelIdeal.Fr

end
-- ==== Proof.KernelIdeal.Region1.RunA.lean ====
/-
  Region 1, case A (k = 0): the accumulator is reset, then gains the product of the point's two blocks; the result's
  block is left untouched. The body's run on whole memrefs; the pieces the accumulator ends with are found by the run.
-/
import proofs.«141350_j68341519613981_1_alg».proof.Proof.KernelIdeal.Region1.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A's run: the inputs at their blocks, the result's buffer handed back as found, the accumulator at anything; it
    ends with the accumulator's pieces written. -/
noncomputable def kernelRun1_A (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1024x1 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_kernel i arg2 harg2 arg3 harg3 arg4 harg4 arg5 harg5 arg6 harg6) K } := by
  refine ⟨[], ?_, fun xi3 E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KernelIdeal.Region1.RunB.lean ====
/-
  Region 1, case B (k = 1, 2): the accumulator, at what the point before left, gains the product of the point's two
  blocks; the result's block is left untouched.
-/
import proofs.«141350_j68341519613981_1_alg».proof.Proof.KernelIdeal.Region1.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B's run: the accumulator enters at `xs0`. -/
noncomputable def kernelRun1_B (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1024x1 .f32) (xs0 : Vec F S1024x64 .f32) :
    Σ' (L3 : List (View.Piece (Elt F) S1024x64 .f32)), { LS0 : List (View.Piece (Elt F) S1024x64 .f32) //
      ∀ (xi3 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_kernel i arg2 harg2 arg3 harg3 arg4 harg4 arg5 harg5 arg6 harg6) K } := by
  refine ⟨[], ?_, fun xi3 E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KernelIdeal.Region1.RunC.lean ====
/-
  Region 1, case C (k = 3): the accumulator gains the last product, and scaled by the filter column it is stored to
  the result's block.
-/
import proofs.«141350_j68341519613981_1_alg».proof.Proof.KernelIdeal.Region1.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C's run: the result's buffer at anything, left with its pieces written. -/
noncomputable def kernelRun1_C (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) :
    Σ' (L3 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__matmul_scale_kernel i arg2 harg2 arg3 harg3 arg4 harg4 arg5 harg5 arg6 harg6) K } := by
  refine ⟨?_, ?_, fun E K => ?run⟩
  case run =>
    simp only [cc1__matmul_scale_kernel_eq_skeleton]; unfold cc1__matmul_scale_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KernelIdeal.Region1.Data.lean ====
/-
  Region 1, assembled: what the result's staging buffer and the accumulator hold after each grid point (by recursion on the
  point: the case the point is in, run on the point's blocks, the accumulator entering at what the point before left),
  the region's proof data, and the body obligation at every point.
-/
import proofs.«141350_j68341519613981_1_alg».proof.Proof.KernelIdeal.Region1.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into the result's block (idle there and not written back): a placeholder nothing consults. -/
def out1_A_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1024x1 .f32) : Vec F S1024x64 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1024x1 .f32) (y : S1024x64.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x64.size (by sl_kernel_rfl) y

/-- What case A leaves in the accumulator. -/
def sout1_A_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : cond1_0 i) (hc1 : ¬cond1_1 i)
    (x0 : Vec F S1024x2048 .f32) (x1 : Vec F S2048x64 .f32) (x2 : Vec F S1024x1 .f32) : Vec F S1024x64 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the result's block (idle there and not written back): a placeholder nothing consults. -/
def out1_B_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1024x1 .f32) (xs0 : Vec F S1024x64 .f32) : Vec F S1024x64 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1024x1 .f32) (xs0 : Vec F S1024x64 .f32) (y : S1024x64.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x64.size (by sl_kernel_rfl) y

/-- What case B leaves in the accumulator. -/
def sout1_B_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : ¬cond1_1 i)
    (x0 : Vec F S1024x2048 .f32) (x1 : Vec F S2048x64 .f32) (x2 : Vec F S1024x1 .f32) (xs0 : Vec F S1024x64 .f32) : Vec F S1024x64 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store covers the result's block. -/
theorem cover1_C_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) (y : S1024x64.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x64.size (by sl_kernel_rfl) y

/-- What case C leaves in the result's staging buffer. -/
def out1_C_3 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) : Vec F S1024x64 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the accumulator cover it. -/
theorem scover1_C_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) (y : S1024x64.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x64.size (by sl_kernel_rfl) y

/-- What case C leaves in the accumulator. -/
def sout1_C_0 (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬cond1_0 i) (hc1 : cond1_1 i)
    (x0 : Vec F S1024x2048 .f32) (x1 : Vec F S2048x64 .f32) (x2 : Vec F S1024x1 .f32) (xs0 : Vec F S1024x64 .f32) : Vec F S1024x64 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the buffers hold after each point -/

/-- After the body at position n: (the result's staging buffer, the accumulator). -/
def outsAt1 (c : Dev nD) : (n : ℕ) → n < cfg1.N → Vec F S1024x64 .f32 × Vec F S1024x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point the scoped buffers at anything; afterwards the
    accumulator at what the point before left, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_scratch0), ((c : Thread nD τ).loc cc2_scratch0) ↦{fullShare} f)) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

end Cert.KernelIdeal.Fr

end
-- ==== Proof.KernelIdeal.Region1.Body.lean ====
/-
  Region 1: the body obligation at every grid point. The closed forms of the two branch conditions say which of the three
  cases a point is in; the case's run is handed the inputs at their blocks and the accumulator at what the point
  before left (at anything at the region's first point, and where the case resets it), and gives the accumulator back at
  the point's contents.
-/
import proofs.«141350_j68341519613981_1_alg».proof.Proof.KernelIdeal.Region1.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨R0, R1, R2, R3, R4, HS0, R6, R7, R8, R9, R10, R11, R12⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg R0 R1 R2 R3 R4 R6 R7 R8 R9 R10 R11 R12]
        · isplitl [HS0 R0 R1 R2 R3 R4 R6 R7 R8 R9 R10 R11 R12]
          · isplitl [R0]; · iexact R0
            isplitl [R1]; · iexact R1
            isplitl [R2]; · iexact R2
            isplitl [R3]; · iexact R3
            isplitl [R4]; · iexact R4
            isplitl [HS0]
            · unfold owns; iexists _; isplitr
              swap; · iexact HS0
              ipureintro; exact View.read_writes_of_cover _ _ _ _ _ (scover1_A_0 c _ _ _ _ _ _ _ _ _ _ _ _ _ _ _ _)
            isplitl [R6]; · iexact R6
            isplitl [R7]; · iexact R7
            isplitl [R8]; · iexact R8
            isplitl [R9]; · iexact R9
            isplitl [R10]; · iexact R10
            isplitl [R11]; · iexact R11
            iexact R12
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨R0, R1, R2, R3, R4, HS0, R6, R7, R8, R9, R10, R11, R12⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg R0 R1 R2 R3 R4 R6 R7 R8 R9 R10 R11 R12]
        · isplitl [HS0 R0 R1 R2 R3 R4 R6 R7 R8 R9 R10 R11 R12]
          · isplitl [R0]; · iexact R0
            isplitl [R1]; · iexact R1
            isplitl [R2]; · iexact R2
            isplitl [R3]; · iexact R3
            isplitl [R4]; · iexact R4
            isplitl [HS0]
            · unfold owns; iexists _; isplitr
              swap; · iexact HS0
              ipureintro; exact View.read_writes_of_cover _ _ _ _ _ (scover1_A_0 c _ _ _ _ _ _ _ _ _ _ _ _ _ _ _ _)
            isplitl [R6]; · iexact R6
            isplitl [R7]; · iexact R7
            isplitl [R8]; · iexact R8
            isplitl [R9]; · iexact R9
            isplitl [R10]; · iexact R10
            isplitl [R11]; · iexact R11
            iexact R12
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨R0, R1, R2, R3, R4, HS0, R6, R7, R8, R9, R10, R11, R12⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg R0 R1 R2 R3 R4 R6 R7 R8 R9 R10 R11 R12]
      · isplitl [HS0 R0 R1 R2 R3 R4 R6 R7 R8 R9 R10 R11 R12]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_C_0 c _ _ _ _ _ _ _ _ _ _ _ _ _ _ _ _ _)
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨R0, R1, R2, R3, R4, HS0, R6, R7, R8, R9, R10, R11, R12⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg R0 R1 R2 R3 R4 R6 R7 R8 R9 R10 R11 R12]
      · isplitl [HS0 R0 R1 R2 R3 R4 R6 R7 R8 R9 R10 R11 R12]
        · isplitl [R0]; · iexact R0
          isplitl [R1]; · iexact R1
          isplitl [R2]; · iexact R2
          isplitl [R3]; · iexact R3
          isplitl [R4]; · iexact R4
          isplitl [HS0]
          · unfold owns; iexists _; isplitr
            swap; · iexact HS0
            ipureintro; exact View.read_writes_of_cover _ _ _ _ _ (scover1_B_0 c _ _ _ _ _ _ _ _ _ _ _ _ _ _ _ _ _)
          isplitl [R6]; · iexact R6
          isplitl [R7]; · iexact R7
          isplitl [R8]; · iexact R8
          isplitl [R9]; · iexact R9
          isplitl [R10]; · iexact R10
          isplitl [R11]; · iexact R11
          iexact R12
        iexact Hg
      isplitl [Ho]; · iexact Ho
      isplitl [H0]; · iexact H0
      isplitl [H1]; · iexact H1
      isplitl [H2]; · iexact H2
      iexists _; iexact H3

/-- The body obligation of region 1's pipeline, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the scoped buffers back at anything: the accumulator's contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨R0, R1, R2, R3, R4, HS0, R6, R7, R8, R9, R10, R11, R12⟩, Hg⟩
  isplitl [HS0 R0 R1 R2 R3 R4 R6 R7 R8 R9 R10 R11 R12]
  · isplitl [R0]; · iexact R0
    isplitl [R1]; · iexact R1
    isplitl [R2]; · iexact R2
    isplitl [R3]; · iexact R3
    isplitl [R4]; · iexact R4
    isplitl [HS0]
    · iexists _; iexact HS0
    isplitl [R6]; · iexact R6
    isplitl [R7]; · iexact R7
    isplitl [R8]; · iexact R8
    isplitl [R9]; · iexact R9
    isplitl [R10]; · iexact R10
    isplitl [R11]; · iexact R11
    iexact R12
  iexact Hg

theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Fr

end
-- ==== Proof.KernelIdeal.Region2.Runs.lean ====
/- REGION 2 of @main (custom_call 2, the accumulating matrix product out = wavelets · scaled): what the three
   control cases of its body share. The body sees a block [1024,2048] of the left factor at (i,k), a block
   [2048,64] of the right factor at (k,0), the output block [1024,64] at (i,0) and one accumulator [1024,64]
   carried from grid point to grid point: the accumulator is zeroed where k = 0, gains the product of the two
   blocks at every point, and is copied to the output block where k = 3. Here: the windows' blocks read off the
   arrays as the region finds them (a parameter `V`), the two branch conditions in closed form over the 32
   points, where the output window is idle, the memrefs the body is called with, and the region invariant with
   the accumulator singled out of the core's scoped buffers. -/
import proofs.«141350_j68341519613981_1_alg».proof.Proof.Gen.KernelIdeal.Launch
import proofs.«141350_j68341519613981_1_alg».proof.Proof.Gen.KernelIdeal.Skeleton
import proofs.«141350_j68341519613981_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- rectangles of the blocks' extents: membership recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is
    `V`'s (`hA`) and whose body leaves the block in place (`hafter`): the window is an input, uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The body's branch conditions -/

/-- The condition of the body's first conditional (zero the accumulator), from the grid coordinates: k = 0. -/
abbrev cond2_0 (i : grid2.Coords) : Prop := (Scalar.cmpi .ne (Scalar.extui (Scalar.cmpi .eq (BitVec.ofNat 32 (i 1).val) 0#32)) 0#32) = 1#1
/-- It holds at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The condition of the body's second conditional (copy the accumulator out), from the grid coordinates: k = 3. -/
abbrev cond2_1 (i : grid2.Coords) : Prop := k2_cond2 i = 1#1
/-- It holds at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- Windows 0 and 1 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
/-- Where k = 0 the output window is idle (nothing is stored into it) and is not written back. -/
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
/-- Where k is 1 or 2 likewise. -/
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
/-- Where k = 3 the output window is live: the body stores into it. -/
theorem liveAt2_2_C : ∀ t : Fin cfg2.N, ¬cond2_0 (grid2.coords t) → cond2_1 (grid2.coords t) → cfg2.idle 2 (grid2.coords t) = false := by decide +kernel

/-! ## The memrefs the body is called with -/

/-- One staging buffer of the output window, through which its contents are stated (the choice does not matter). -/
abbrev VO2_2 : View sig .tc .vmem S1024x64 .f32 := (Memref.whole cc2_stg2_0 : Memref sig .tc .vmem S1024x64 .f32).view
/-- Each window's current staging memref at point `t`, and its wholeness. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .f32 := win2_2.stage (cfg2.slots t 2)
abbrev hs2_2 (t : Fin cfg2.N) : (ms2_2 t).IsWhole := hstage2_2 ((cfg2.slots t 2).cast nbuf2_2)
/-- The accumulator: a whole scoped buffer of the kernel's own, passed beside the windows, -/
abbrev scM2_0 : Memref sig .tc .vmem S1024x64 .f32 := Memref.whole cc2_scratch0
/-- and as a view: what it holds is stated through it. -/
abbrev VS2_0 : View sig .tc .vmem S1024x64 .f32 := scM2_0.view

/-! ## The region invariant with the accumulator singled out -/

/-- The core's scoped buffers that are no staging buffer of this call, split at the accumulator: its points-to at
    some contents, and every other one (the other calls' staging buffers and accumulator) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The others, carried unopened through every point. -/
abbrev others2 (c : Dev nD) : sProp 𝕄 :=
  Pipeline.scopedRestBut (Ix := Unit) (Name := ℕ) (U := UR sig nD τ) (Lvl := ℕ) (Val := Elt F) spec2 c [cc2_scratch0]

/-- What the launch hands the region, with the accumulator as a memref owned at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA; rw [scopedRest2_split]; simp only [scM2_0, owns_whole]; try rfl

end Cert.KernelIdeal.Fr

end
-- ==== Proof.KernelIdeal.Region2.RunA.lean ====
/- REGION 2, case A of its body (k = 0: the accumulator is zeroed, then gains the product; nothing is copied
   out): the body's triple on any whole staging memrefs, the pieces its stores leave in the accumulator
   being the witness. -/
import proofs.«141350_j68341519613981_1_alg».proof.Proof.KernelIdeal.Region2.Runs

-- rectangles of the blocks' extents: membership recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first conditional taken, second not). On whole memrefs — the inputs' at their contents `x0`, `x1`, the
    output's at contents `xi2` handed back untouched, the accumulator at anything — the body runs to the
    continuation holding the inputs' and the output's as they were and the accumulator with the pieces `LS0`
    written: zero, then zero plus the product of the blocks. -/
noncomputable def kernelRun2_A (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond2_0 i) (hc1 : ¬cond2_1 i)
    (x0 : Vec F S1024x2048 .f32) (x1 : Vec F S2048x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_acc_kernel i arg2 harg2 arg3 harg3 arg4 harg4 arg5 harg5) K } := by
  refine ⟨[], ?_, fun xi2 E K => ?run⟩
  case run =>
    simp only [cc2__matmul_acc_kernel_eq_skeleton]; unfold cc2__matmul_acc_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdeal.Region2.RunB.lean ====
/- REGION 2, case B of its body (k = 1 or 2: the accumulator gains the product; nothing is zeroed, nothing is
   copied out): the body's triple on any whole staging memrefs, the pieces its store leaves in the
   accumulator being the witness. -/
import proofs.«141350_j68341519613981_1_alg».proof.Proof.KernelIdeal.Region2.RunA

-- rectangles of the blocks' extents: membership recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (neither conditional taken). On whole memrefs — the inputs' at their contents `x0`, `x1`, the output's
    at contents `xi2` handed back untouched, the accumulator at what the point before left, `xs0` — the body runs
    to the continuation holding the inputs' and the output's as they were and the accumulator with the pieces
    `LS0` written: `xs0` plus the product of the blocks. -/
noncomputable def kernelRun2_B (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : ¬cond2_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (xi2 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_acc_kernel i arg2 harg2 arg3 harg3 arg4 harg4 arg5 harg5) K } := by
  refine ⟨[], ?_, fun xi2 E K => ?run⟩
  case run =>
    simp only [cc2__matmul_acc_kernel_eq_skeleton]; unfold cc2__matmul_acc_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdeal.Region2.RunC.lean ====
/- REGION 2, case C of its body (k = 3: the accumulator gains the product and is copied to the output block):
   the body's triple on any whole staging memrefs, the pieces its stores leave in the output's buffer and in
   the accumulator being the witness. -/
import proofs.«141350_j68341519613981_1_alg».proof.Proof.KernelIdeal.Region2.RunB

-- rectangles of the blocks' extents: membership recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (first conditional not taken, second taken). On whole memrefs — the inputs' at their contents `x0`,
    `x1`, the output's at anything, the accumulator at what the point before left, `xs0` — the body runs to the
    continuation holding the inputs' as they were, the accumulator with the pieces `LS0` written (`xs0` plus the
    product of the blocks) and the output's buffer with the pieces `L2` written (that sum). -/
noncomputable def kernelRun2_C (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) :
    Σ' (L2 : List (View.Piece (Elt F) S1024x64 .f32)), { LS0 : List (View.Piece (Elt F) S1024x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__matmul_acc_kernel i arg2 harg2 arg3 harg3 arg4 harg4 arg5 harg5) K } := by
  refine ⟨?_, ?_, fun E K => ?run⟩
  case run =>
    simp only [cc2__matmul_acc_kernel_eq_skeleton]; unfold cc2__matmul_acc_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KernelIdeal.Region2.Data.lean ====
/- REGION 2 of @main (custom_call 2, the accumulating matrix product out = wavelets · scaled), at a parameter `V`
   of entry contents: what the output window's buffer and the accumulator hold per control case and point by point
   (`outsAt2`), the region invariant with the accumulator at those contents (`PhiS2`), and the proof data (`dat2`).
   The cases' runs are in Region2/RunA … RunC, what they share in Region2/Runs. -/
import proofs.«141350_j68341519613981_1_alg».proof.Proof.KernelIdeal.Region2.RunC

-- rectangles of the blocks' extents: membership recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A (k = 0) stores nothing into the output window (idle at its points and not written back there):
    no pieces — a placeholder that nothing consults. -/
def out2_A_2 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond2_0 i) (hc1 : ¬cond2_1 i)
    (x0 : Vec F S1024x2048 .f32) (x1 : Vec F S2048x64 .f32) : Vec F S1024x64 .f32 :=
  VO2_2.read (Elt F) (VO2_2.writes (Elt F) VO2_2.junk (kernelRun2_A c i arg2 harg2 arg3 harg3 arg4 harg4 arg5 harg5 hc0 hc1 x0 x1).1)

/-- Case A's pieces for the accumulator tile it (whole stores), so they cover it. -/
theorem scover2_A_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond2_0 i) (hc1 : ¬cond2_1 i)
    (x0 : Vec F S1024x2048 .f32) (x1 : Vec F S2048x64 .f32) (y : S1024x64.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1024x64.size (by sl_kernel_rfl) y

/-- What case A leaves in the accumulator: its pieces read back. -/
def sout2_A_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : cond2_0 i) (hc1 : ¬cond2_1 i)
    (x0 : Vec F S1024x2048 .f32) (x1 : Vec F S2048x64 .f32) : Vec F S1024x64 .f32 :=
  VS2_0.read (Elt F) (VS2_0.writes (Elt F) VS2_0.junk (kernelRun2_A c i arg2 harg2 arg3 harg3 arg4 harg4 arg5 harg5 hc0 hc1 x0 x1).2.1)

/-- Case B (k = 1 or 2) stores nothing into the output window (idle at its points and not written back there):
    no pieces — a placeholder that nothing consults. -/
def out2_B_2 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : ¬cond2_1 i)
    (x0 : Vec F S1024x2048 .f32) (x1 : Vec F S2048x64 .f32) (xs0 : Vec F S1024x64 .f32) : Vec F S1024x64 .f32 :=
  VO2_2.read (Elt F) (VO2_2.writes (Elt F) VO2_2.junk (kernelRun2_B c i arg2 harg2 arg3 harg3 arg4 harg4 arg5 harg5 hc0 hc1 x0 x1 xs0).1)

/-- Case B's pieces for the accumulator tile it (whole stores), so they cover it. -/
theorem scover2_B_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : ¬cond2_1 i)
    (x0 : Vec F S1024x2048 .f32) (x1 : Vec F S2048x64 .f32) (xs0 : Vec F S1024x64 .f32) (y : S1024x64.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S1024x64.size (by sl_kernel_rfl) y

/-- What case B leaves in the accumulator: its pieces read back. -/
def sout2_B_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : ¬cond2_1 i)
    (x0 : Vec F S1024x2048 .f32) (x1 : Vec F S2048x64 .f32) (xs0 : Vec F S1024x64 .f32) : Vec F S1024x64 .f32 :=
  VS2_0.read (Elt F) (VS2_0.writes (Elt F) VS2_0.junk (kernelRun2_B c i arg2 harg2 arg3 harg3 arg4 harg4 arg5 harg5 hc0 hc1 x0 x1 xs0).2.1)

/-- Case C's pieces for the output window tile its block (one whole store), so they cover it. -/
theorem cover2_C_2 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) (y : S1024x64.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1024x64.size (by sl_kernel_rfl) y

/-- What case C leaves in the output window's staging buffer: its pieces read back. -/
def out2_C_2 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) : Vec F S1024x64 .f32 :=
  VO2_2.read (Elt F) (VO2_2.writes (Elt F) VO2_2.junk (kernelRun2_C c i arg2 harg2 arg3 harg3 arg4 harg4 arg5 harg5 hc0 hc1 x0 x1 xs0).1)

/-- Case C's pieces for the accumulator tile it (whole stores), so they cover it. -/
theorem scover2_C_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) (y : S1024x64.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1024x64.size (by sl_kernel_rfl) y

/-- What case C leaves in the accumulator: its pieces read back. -/
def sout2_C_0 (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬cond2_0 i) (hc1 : cond2_1 i)
    (x0 : Vec F S1024x2048 .f32) (x1 : Vec F S2048x64 .f32) (xs0 : Vec F S1024x64 .f32) : Vec F S1024x64 .f32 :=
  VS2_0.read (Elt F) (VS2_0.writes (Elt F) VS2_0.junk (kernelRun2_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## What the output window's buffer and the accumulator hold after each point -/

/-- THE ACCUMULATION. What the output window's staging buffer and the accumulator hold after the body at position
    `n` (a pair: the output's buffer, then the accumulator): the case the closed forms select at `n`, run at the
    point's memrefs and input blocks, the accumulator at what this leaves at `n - 1`. No point meets both
    conditions (`False.elim`). -/
def outsAt2 (c : Dev nD) : (n : ℕ) → n < cfg2.N → Vec F S1024x64 .f32 × Vec F S1024x64 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region (every
    scoped buffer at anything); afterwards the accumulator at what the point before left in it (`outsAt2`'s second
    component), the other scoped buffers unopened, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare ((outsAt2 V c n hn).2) ∗ others2 (F := F) c) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

end Region

end Cert.KernelIdeal.Fr

end
-- ==== Proof.KernelIdeal.Region2.Body.lean ====
/- REGION 2 of @main (custom_call 2, the accumulating matrix product out = wavelets · scaled), at a parameter `V`
   of entry contents: the body obligation of its proof data (`body_obligation2`) — at each point the case's run
   between the invariant before and after —, and the invariant's two ends (`hin2`, `hout2`). -/
import proofs.«141350_j68341519613981_1_alg».proof.Proof.KernelIdeal.Region2.Data

-- rectangles of the blocks' extents: membership recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in;
    the case's run applies; the invariant hands the body the accumulator at what the point before left (at anything
    at the first point) and takes it back at this point's contents, the other scoped buffers and the generator
    register passing through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Region

end Cert.KernelIdeal.Fr

end
-- ==== Proof.KernelIdeal.Run.lean ====
/-
  The whole program: @main is region 0 (T = x · w), the host reshape of the filter to a column, region 1
  (S = diag(f) · (B · T)) and region 2 (A · S), in that order. The contents of every unscoped buffer at each boundary are
  folded from the launch memory: a region leaves its arrays at what its pipeline writes back and everything else as it
  was, the host stretch writes its one result. Every weakly fair execution terminates with every unscoped buffer at the
  last boundary's contents; read at the arguments this gives the frame, read at the result it names the result's array.
  Stated for any float instance.
-/
import proofs.«141350_j68341519613981_1_alg».proof.Proof.KernelIdeal.Region0
import proofs.«141350_j68341519613981_1_alg».proof.Proof.KernelIdeal.Region1.Body
import proofs.«141350_j68341519613981_1_alg».proof.Proof.KernelIdeal.Region2.Body
import proofs.«141350_j68341519613981_1_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what the pipeline leaves (an input as entered, the result's write-backs folded), every other
    buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host reshape. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After region 1: its arrays at what the pipeline leaves (an input as entered, the result's write-backs folded), every other
    buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After region 2: its arrays at what the pipeline leaves (an input as entered, the result's write-backs folded), every other
    buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## The arguments end as launched: no host operation writes one, and a region reads it through an input window or
    bypasses it -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := StableHlo.after_of_writes_sub hostOps1 _ hostOps1_writes (r := main_arg0) (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := StableHlo.after_of_writes_sub hostOps1 _ hostOps1_writes (r := main_arg1) (by decide)
    _ = W0 m c (Proc.devRef .tc main_arg1) := (W1_arr m c 1).trans (((dat0 (V0 m) c).arrAt_in 1 rfl _).trans (A_eq0 (V0 m) c 1))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := StableHlo.after_of_writes_sub hostOps1 _ hostOps1_writes (r := main_arg2) (by decide)
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 0).trans (((dat2 (V3 m) c).arrAt_in 0 rfl _).trans (A_eq2 (V3 m) c 0))
    _ = W2 m c (Proc.devRef .tc main_arg3) := W3_of_ne m c main_arg3 (by decide)
    _ = W1 m c (Proc.devRef .tc main_arg3) := StableHlo.after_of_writes_sub hostOps1 _ hostOps1_writes (r := main_arg3) (by decide)
    _ = W0 m c (Proc.devRef .tc main_arg3) := W1_of_ne m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := (W3_arr m c 0).trans (((dat1 (V2 m) c).arrAt_in 0 rfl _).trans (A_eq1 (V2 m) c 0))
    _ = W1 m c (Proc.devRef .tc main_arg4) := StableHlo.after_of_writes_sub hostOps1 _ hostOps1_writes (r := main_arg4) (by decide)
    _ = W0 m c (Proc.devRef .tc main_arg4) := W1_of_ne m c main_arg4 (by decide)
    _ = m ((c : Thread nD τ).loc main_arg4) := rfl

/-! ## The proof data of the three pipelines and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at its contents before the region, left with them at the
    contents after it; its arrays are split out of the unscoped buffers at entry and put back at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at its contents before the region, left with them at the
    contents after it; its arrays are split out of the unscoped buffers at entry and put back at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m 1 c).Φ 0 := hin1 (V2 m) c
    unfold Pipeline.ΦA at h
    iintro ⟨Hp, -, Hr⟩
    iapply h
    isplitl [Hr]; · iexact Hr
    iexact Hp
  hout c := by
    rw [Pipeline.ownSems0_none]
    have h : (pdats m 1 c).Φ (Fin.last _) ⊢ Pipeline.ΦA spec1 c := hout1 (V2 m) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at its contents before the region, left with them at the
    contents after it; its arrays are split out of the unscoped buffers at entry and put back at exit; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m 2 c).Φ 0 := hin2 (V3 m) c
    unfold Pipeline.ΦA at h
    iintro ⟨Hp, -, Hr⟩
    iapply h
    isplitl [Hr]; · iexact Hr
    iexact Hp
  hout c := by
    rw [Pipeline.ownSems0_none]
    have h : (pdats m 2 c).Φ (Fin.last _) ⊢ Pipeline.ΦA spec2 c := hout2 (V3 m) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .region (reg2 m) ]
theorem main_run (c : Dev nD) : main (F := F) c = Pipeline.Seg.run (segs m) := (main_chain c).trans (by chain_rfl)

set_option backward.isDefEq.respectTransparency.types false in
/-- THE RUN. From any memory with zero counters, every weakly fair execution of @main terminates, nothing faulting, and
    every final state holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

/-- The run with the result's array named: it ends at what region 2's pipeline leaves in its result window's array. -/
theorem run_named (ρ : Dev nD → PrngReg) : θ_run defs (onTc (τ := τ) (main (F := F))) ⟨m, fun _ => 0, ρ⟩ (fun r => ∀ c : Dev nD,
      r.2.mem ((c.tc : Thread nD τ).loc main_v3) = (dat2 (V3 m) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v3 (by decide))).trans (W4_arr m c 2),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_all m ρ)

end Cert.KernelIdeal.Fr

end
-- ==== Proof.Value.Payloads.lean ====
/-
  Every value a kernel body stores, read at an index over the extended reals: a change of format is the identity,
  a reshape to the same shape is the identity, a product accumulated into the zero constant is the plain sum over
  the contraction axis, a column broadcast along the rows reads the column at the entry's row.
-/
import proofs.«141350_j68341519613981_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen Idealize.ShloMosaic Idealize.ShloMosaic.ValueIdx

/-- The row and the column of an index of a [1024, 64] block, as plain numbers below the extents. -/
abbrev rw1 (j : S1024x64.Idx) : Fin 1024 := ⟨(j 0).val, idx2_lt0 j⟩
abbrev ln (j : S1024x64.Idx) : Fin 64 := ⟨(j 1).val, idx2_lt1 j⟩

/-! ## The operand indices of the two products, axis by axis -/

theorem dotA_lhs_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem dotA_lhs_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem dotA_rhs_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem dotA_rhs_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

theorem dotB_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem dotB_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem dotB_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem dotB_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## The two products into the zero accumulator -/

/-- The product into the zero accumulator, entry by entry: the sum over the contraction axis of length 128. -/
theorem dotA_sum {φ₁ φ₂ : FTy} (a : FVec Ideal S1024x128 φ₁) (b : FVec Ideal S128x64 φ₂) (j : S1024x64.Idx) :
    FloatOps.matmul dot_S1024x128_S128x64_S1024x64_1_0_0_1_n_n none a b (constant S1024x64 .f32 0x00000000#32) j
      = ∑ k : Fin 128, a (ix2 (rw1 j) k) * b (ix2 k (ln j)) := by
  rw [Ideal.matmul_constant_zero_apply, ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx j ((contrEquiv1 dot_S1024x128_S128x64_S1024x64_1_0_0_1_n_n 128 rfl rfl).symm k) = ix2 (rw1 j) k := funext fun a => Fin.ext (by
    match a with
    | ⟨0, _⟩ => exact dotA_lhs_0 _ _
    | ⟨1, _⟩ => exact (dotA_lhs_1 _ _).trans hk)
  have er : dot_S1024x128_S128x64_S1024x64_1_0_0_1_n_n.rhsIdx j ((contrEquiv1 dot_S1024x128_S128x64_S1024x64_1_0_0_1_n_n 128 rfl rfl).symm k) = ix2 k (ln j) := funext fun a => Fin.ext (by
    match a with
    | ⟨0, _⟩ => exact (dotA_rhs_0 _ _).trans hk
    | ⟨1, _⟩ => exact dotA_rhs_1 _ _)
  rw [el, er]

/-- The product into the zero accumulator, entry by entry: the sum over the contraction axis of length 2048. -/
theorem dotB_sum {φ₁ φ₂ : FTy} (a : FVec Ideal S1024x2048 φ₁) (b : FVec Ideal S2048x64 φ₂) (j : S1024x64.Idx) :
    FloatOps.matmul dot_S1024x2048_S2048x64_S1024x64_1_0_0_1_n_n none a b (constant S1024x64 .f32 0x00000000#32) j
      = ∑ k : Fin 2048, a (ix2 (rw1 j) k) * b (ix2 k (ln j)) := by
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx j ((contrEquiv1 dot_S1024x2048_S2048x64_S1024x64_1_0_0_1_n_n 2048 rfl rfl).symm k) = ix2 (rw1 j) k := funext fun a => Fin.ext (by
    match a with
    | ⟨0, _⟩ => exact dotB_lhs_0 _ _
    | ⟨1, _⟩ => exact (dotB_lhs_1 _ _).trans hk)
  have er : dot_S1024x2048_S2048x64_S1024x64_1_0_0_1_n_n.rhsIdx j ((contrEquiv1 dot_S1024x2048_S2048x64_S1024x64_1_0_0_1_n_n 2048 rfl rfl).symm k) = ix2 k (ln j) := funext fun a => Fin.ext (by
    match a with
    | ⟨0, _⟩ => exact (dotB_rhs_0 _ _).trans hk
    | ⟨1, _⟩ => exact dotB_rhs_1 _ _)
  rw [el, er]

/-! ## The first kernel: T's block -/

/-- The block of x · w: the sum over the 128 input features. -/
theorem k0_pay1_apply (v0 : Vec Ideal S1024x128 .f32) (v2 : Vec Ideal S128x64 .f32) (j : S1024x64.Idx) :
    k0_pay1 (F := Ideal) v0 v2 j = ∑ i : Fin 128, v0 (ix2 (rw1 j) i) * v2 (ix2 i (ln j)) := by
  unfold k0_pay1
  simp only [matmul]
  rw [dotA_sum]
  rfl

/-! ## The second kernel: accumulate B · T over the blocks, then scale the rows -/

/-- The accumulator's initial value: zero at every entry. -/
theorem k1_pay1_apply (j : S1024x64.Idx) : k1_pay1 (F := Ideal) j = 0 := by
  unfold k1_pay1
  simp only [shapeCast_self]
  exact Ideal.ofBits_zero_f32

/-- The accumulating step: the accumulator's entry plus the block product's entry. -/
theorem k1_pay2_apply (v3 : Vec Ideal S1024x2048 .f32) (v5 : Vec Ideal S2048x64 .f32) (v8 : Vec Ideal S1024x64 .f32)
    (j : S1024x64.Idx) :
    k1_pay2 (F := Ideal) v3 v5 v8 j = v8 j + ∑ kk : Fin 2048, v3 (ix2 (rw1 j) kk) * v5 (ix2 kk (ln j)) := by
  unfold k1_pay2
  simp only [matmul, shapeCast_self]
  rw [addf_apply, dotB_sum]
  rfl

/-- The row scaling: the accumulator's entry times the filter column at the entry's row. -/
theorem k1_pay3_apply (v17 : Vec Ideal S1024x64 .f32) (v18 : Vec Ideal S1024x1 .f32) (j : S1024x64.Idx) :
    k1_pay3 (F := Ideal) v17 v18 j = v17 j * v18 (ix2 (rw1 j) (0 : Fin 1)) := by
  unfold k1_pay3
  simp only [shapeCast_self]
  rw [mulf_apply, broadcastTo_apply v18 broadcasts_S1024x1_S1024x64 j (ix2 (rw1 j) (0 : Fin 1)) (fun a => match a with
    | ⟨0, _⟩ => by show (j 0).val = if (1024 : Nat) = 1 then 0 else (j 0).val; rw [if_neg (by decide)]
    | ⟨1, _⟩ => by show 0 = if (1 : Nat) = 1 then 0 else (j 1).val; rw [if_pos rfl])]

/-! ## The third kernel: accumulate A · S over the blocks -/

/-- The accumulator's initial value: zero at every entry. -/
theorem k2_pay1_apply (j : S1024x64.Idx) : k2_pay1 (F := Ideal) j = 0 := by
  unfold k2_pay1
  simp only [shapeCast_self]
  exact Ideal.ofBits_zero_f32

/-- The accumulating step: the accumulator's entry plus the block product's entry. -/
theorem k2_pay2_apply (v3 : Vec Ideal S1024x2048 .f32) (v5 : Vec Ideal S2048x64 .f32) (v8 : Vec Ideal S1024x64 .f32)
    (j : S1024x64.Idx) :
    k2_pay2 (F := Ideal) v3 v5 v8 j = v8 j + ∑ kk : Fin 2048, v3 (ix2 (rw1 j) kk) * v5 (ix2 kk (ln j)) := by
  unfold k2_pay2
  simp only [matmul, shapeCast_self]
  rw [addf_apply, dotB_sum]
  rfl

end Cert.KernelIdeal.Val

end
-- ==== Proof.Spec.lean ====
/-
  The mathematics of the wavelet graph convolution, stated once over the extended reals, index by index.

  With x : [8192, 128], w : [128, 64], f : [8192], A (wavelets) and B (inverse wavelets) : [8192, 8192]:
    T = x · w                           T[n, o] = Σ_i x[n, i] · w[i, o]
    S = diag(f) · (B · T)               S[n, o] = (Σ_k B[n, k] · T[k, o]) · f[n]
    G = A · S                           G[n, o] = Σ_k A[n, k] · S[k, o]
  The reference computes (A ∘ f[None, :]) · (B · T); the two agree because multiplication of extended reals is
  commutative and associative: A[n, k] · ((B·T)[k, o] · f[k]) = (A[n, k] · f[k]) · (B·T)[k, o], term by term
  (`Cert.Spec.scale_move`), with no finiteness needed.
-/
import Idealize.ShloMosaic.PureOps.Ideal
import Idealize.ShloMosaic.Lib.ValueIdx

noncomputable section

namespace Cert.Spec

open Idealize.ShloMosaic Idealize.ShloMosaic.ValueIdx

/-- The shapes of the arrays, literal. -/
abbrev SX : Shape := ⟨2, ![8192, 128]⟩
abbrev SWt : Shape := ⟨2, ![128, 64]⟩
abbrev SFl : Shape := ⟨1, ![8192]⟩
abbrev SCol : Shape := ⟨2, ![8192, 1]⟩
abbrev SBig : Shape := ⟨2, ![8192, 8192]⟩
abbrev SOut : Shape := ⟨2, ![8192, 64]⟩

/-- The row and the column of an index of a [8192, 64] array, as plain numbers below the extents. -/
abbrev row (j : SOut.Idx) : Fin 8192 := ⟨(j 0).val, idx2_lt0 j⟩
abbrev lane (j : SOut.Idx) : Fin 64 := ⟨(j 1).val, idx2_lt1 j⟩

/-- A matrix product with 8192 rows, contraction length `K` and 64 columns, entry by entry. -/
def mm {K : Nat} (a : (⟨2, ![8192, K]⟩ : Shape).Idx → EReal) (b : (⟨2, ![K, 64]⟩ : Shape).Idx → EReal) : SOut.Idx → EReal :=
  fun j => ∑ k : Fin K, a (ix2 (row j) k) * b (ix2 k (lane j))

/-- T = x · w. -/
def T (x : SX.Idx → EReal) (w : SWt.Idx → EReal) : SOut.Idx → EReal := mm x w

/-- The filter as a column [8192, 1]. -/
def col (f : SFl.Idx → EReal) : SCol.Idx → EReal := fun j => f (ix1 ⟨(j 0).val, idx2_lt0 j⟩)

/-- S = (B · t) scaled row by row by the column `fc`. -/
def S (b : SBig.Idx → EReal) (t : SOut.Idx → EReal) (fc : SCol.Idx → EReal) : SOut.Idx → EReal :=
  fun j => mm b t j * fc (ix2 (row j) (0 : Fin 1))

/-- The kernel's result, G = A · S(B, T(x, w), col f). -/
def G (x : SX.Idx → EReal) (w : SWt.Idx → EReal) (f : SFl.Idx → EReal) (a b : SBig.Idx → EReal) : SOut.Idx → EReal :=
  mm a (S b (T x w) (col f))

/-- The reference's arrangement: the columns of A scaled by f, times B · T. -/
def R (x : SX.Idx → EReal) (w : SWt.Idx → EReal) (f : SFl.Idx → EReal) (a b : SBig.Idx → EReal) : SOut.Idx → EReal :=
  fun j => ∑ k : Fin 8192, (a (ix2 (row j) k) * f (ix1 k)) * mm b (T x w) (ix2 k (lane j))

/-- Moving the scale from the rows of the right factor to the columns of the left one: commutativity and
    associativity of the product of extended reals, which hold at the infinities too. -/
theorem scale_move (p q r : EReal) : p * (q * r) = (p * r) * q := by
  rw [mul_comm q r, mul_assoc]

/-- The two arrangements are one function. -/
theorem G_eq_R (x : SX.Idx → EReal) (w : SWt.Idx → EReal) (f : SFl.Idx → EReal) (a b : SBig.Idx → EReal) :
    G x w f a b = R x w f a b := by
  funext j
  unfold G R mm S col
  refine Finset.sum_congr rfl fun k _ => ?_
  exact scale_move _ _ _

end Cert.Spec

end
-- ==== Proof.Value.Region0.lean ====
/- REGION 0's value at the extended reals: after the first pallas_call its output array is T = x · w, the
   product of the features with the weight, block of rows by block of rows. -/
import proofs.«141350_j68341519613981_1_alg».proof.Proof.KernelIdeal.Region0
import proofs.«141350_j68341519613981_1_alg».proof.Proof.Value.Payloads
import proofs.«141350_j68341519613981_1_alg».proof.Proof.Spec
import Idealize.ShloMosaic.Lib.Pipeline.Value
import Idealize.ShloMosaic.Lib.Tactic

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- The zero offsets of a whole-buffer access. -/
theorem zero_off : (![0, 0] : Fin 2 → Nat) = fun _ => 0 := funext fun a => by fin_cases a <;> rfl

/-- The three windows' block indices over the grid: the features block moves with the output block along the
    rows and sits at column block 0; the weight is always its one block; the output block's column block is 0
    and its row block is below 8. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block of rows of the output is some point's. -/
theorem idx_onto0 : ∀ q0 : Fin 8, ∃ t : Fin cfg0.N, win0_2.index t = ![q0.val, 0] :=
  (by decide +kernel : ∀ q0 : Fin 8, ∃ t : Fin grid0.N, win0_2.index t = ![q0.val, 0])

/-- What point t writes back is block t of T = x · w of the two argument arrays as the region finds them:
    entry (r, o) of the block is the sum over i of x[1024 t + r, i] · w[i, o], the features block's row r
    being row 1024 t + r of x and the weight block being w itself. -/
theorem flushed0_eq (c : Dev nD) (t : Fin cfg0.N) :
    (Fr.dat0 V c).flushed 2 t = ((cfg0.win 2).blk t).view.read (Elt Ideal) (Cert.Spec.T (V c main_arg0) (V c main_arg1)) := by
  show (cfg0.win 2).cut (grid0.coords t) ((Fr.dat0 V c).after 2 t) = _
  rw [Fr.after0_2]
  unfold Fr.out0_2
  rw [View.canon_unit_zero zero_off]
  simp only [View.ld_unit_zero (S := S1024x128) zero_off, View.ld_unit_zero (S := S128x64) zero_off]
  obtain ⟨e0, e1, e2, e3, e4, e5⟩ := idx_facts0 t
  funext j
  show k0_pay1 (F := Ideal) (Fr.iblk0 V c 0 t) (Fr.iblk0 V c 1 t) j
    = Cert.Spec.T (V c main_arg0) (V c main_arg1) (((cfg0.win 2).blk t).view.emb j)
  rw [k0_pay1_apply]
  unfold Cert.Spec.T Cert.Spec.mm
  refine Finset.sum_congr rfl fun k _ => ?_
  congr 1
  · show V c main_arg0 (((cfg0.win 0).blk t).view.emb _) = V c main_arg0 _
    congr 1; funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * k.val = k.val; omega
  · show V c main_arg1 (((cfg0.win 1).blk t).view.emb _) = V c main_arg1 _
    congr 1; funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array is in point t's block iff each coordinate is in the block's range on its axis. -/
theorem mem_blk0 (t : Fin cfg0.N) (i : S8192x64.Idx) :
    i ∈ ((cfg0.win 2).blk t).view.set ↔ ∀ a : Fin 2, win0_2.index t a * S1024x64.size a ≤ (i a).val ∧ (i a).val < win0_2.index t a * S1024x64.size a + S1024x64.size a := by
  show i ∈ ((View.whole main_v0).slice (win0_2.rect t)).set ↔ _
  rw [View.set_slice_whole, Rect.mem_set_unit]
  exact Iff.rfl

/-- Every index of the output array is in some point's block: row r is in the block of point r / 1024. -/
theorem cover0 (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 64 ≤ (i 1).val ∧ (i 1).val < win0_2.index t (1 : Fin 2) * 64 + 64; omega

/-- The output array after the region: T = x · w of the argument arrays as the region finds them. -/
theorem final0 (c : Dev nD) : (Fr.dat0 V c).arrAt 2 cfg0.N = Cert.Spec.T (V c main_arg0) (V c main_arg1) :=
  (Fr.dat0 V c).arrAt_eq_of_cover 2 (Cert.Spec.T (V c main_arg0) (V c main_arg1)) (fun t _ => flushed0_eq V c t) cover0

end Cert.KernelIdeal.Val

end
-- ==== Proof.SpecBlocks.lean ====
/-
  Cutting the contraction axis of length 8192 into 4 consecutive blocks of 2048: a sum over the whole axis is
  the sum over the blocks of the sums inside each block, and an accumulator that starts at zero and adds the
  four block sums in order holds the sum over the blocks.
-/
import Mathlib.Algebra.BigOperators.Fin
import Mathlib.Data.Fintype.BigOperators

namespace Cert.Spec

open scoped BigOperators

/-- An index below 8192 is a block number below 4 and a position below 2048 inside the block:
    k = 2048 · (k / 2048) + k % 2048. -/
def blockEquiv : Fin 4 × Fin 2048 ≃ Fin 8192 where
  toFun p := ⟨2048 * p.1.val + p.2.val, by omega⟩
  invFun k := (⟨k.val / 2048, by omega⟩, ⟨k.val % 2048, by omega⟩)
  left_inv p := by
    obtain ⟨b, kk⟩ := p
    refine Prod.ext (Fin.ext ?_) (Fin.ext ?_)
    · show (2048 * b.val + kk.val) / 2048 = b.val
      omega
    · show (2048 * b.val + kk.val) % 2048 = kk.val
      omega
  right_inv k := by
    refine Fin.ext ?_
    show 2048 * (k.val / 2048) + k.val % 2048 = k.val
    omega

/-- The sum over the axis, block by block. -/
theorem sum_blocks {M : Type} [AddCommMonoid M] (g : Fin 8192 → M) :
    ∑ k : Fin 8192, g k = ∑ b : Fin 4, ∑ kk : Fin 2048, g ⟨2048 * b.val + kk.val, by omega⟩ := by
  rw [← Equiv.sum_comp blockEquiv g, Fintype.sum_prod_type]
  rfl

/-- The accumulator after the four blocks: zero plus the block sums in order is their sum. -/
theorem acc_blocks {M : Type} [AddCommMonoid M] (p : Fin 4 → M) :
    (((0 + p 0) + p 1) + p 2) + p 3 = ∑ b : Fin 4, p b := by
  rw [Fin.sum_univ_four, zero_add]

end Cert.Spec
-- ==== Proof.Value.Region1.lean ====
/- REGION 1's value at the extended reals: after the second pallas_call its result array is
   S = diag(f) · (B · T). For each block of 1024 rows the kernel keeps an accumulator over the four points of the
   row block: zero plus the products of the point's [1024, 2048] block of B with its [2048, 64] block of T, added in
   order; the last point scales the rows by the filter column's block and stores the result's block. The four block
   products are the contraction over the axis of length 8192 cut into four consecutive blocks of 2048. -/
import proofs.«141350_j68341519613981_1_alg».proof.Proof.KernelIdeal.Region1.Data
import proofs.«141350_j68341519613981_1_alg».proof.Proof.Value.Payloads
import proofs.«141350_j68341519613981_1_alg».proof.Proof.Spec
import proofs.«141350_j68341519613981_1_alg».proof.Proof.SpecBlocks
import Idealize.ShloMosaic.Lib.Pipeline.Value
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open Idealize.ShloMosaic.Tactic

variable {F : FTy → Type} [FloatOps F]

/-- The zero offsets of a whole-buffer access. -/
theorem zero_off1 : (![0, 0] : Fin 2 → Nat) = fun _ => 0 := funext fun a => by fin_cases a <;> rfl

/-! ## What each control case leaves, as the payloads of its stores -/

/-- A middle point adds the product of its two blocks onto what the accumulator held. -/
theorem soutB_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬Fr.cond1_0 i) (hc1 : ¬Fr.cond1_1 i)
    (x0 : Vec F S1024x2048 .f32) (x1 : Vec F S2048x64 .f32) (x2 : Vec F S1024x1 .f32) (xs0 : Vec F S1024x64 .f32) :
    Fr.sout1_B_0 c i arg2 harg2 arg3 harg3 arg4 harg4 arg5 harg5 arg6 harg6 hc0 hc1 x0 x1 x2 xs0 = k1_pay2 x0 x1 xs0 := by
  unfold Fr.sout1_B_0
  rw [View.read_writes_eq_canon _ _ _ (Fr.scover1_B_0 c i arg2 harg2 arg3 harg3 arg4 harg4 arg5 harg5 arg6 harg6 hc0 hc1 x0 x1 x2 xs0)]
  unfold Fr.kernelRun1_B
  dsimp only
  try sl_unfold_words
  rw [View.canon_unit_zero zero_off1]
  simp only [View.readAt_eq_ld, harg2.read_unread, harg3.read_unread, harg6.read_unread,
    View.ld_unit_zero (S := S1024x2048) zero_off1, View.ld_unit_zero (S := S2048x64) zero_off1, View.ld_unit_zero (S := S1024x64) zero_off1]

/-- The first point of a row block resets the accumulator to zero and adds the product of its two blocks. -/
theorem soutA_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : Fr.cond1_0 i) (hc1 : ¬Fr.cond1_1 i)
    (x0 : Vec F S1024x2048 .f32) (x1 : Vec F S2048x64 .f32) (x2 : Vec F S1024x1 .f32) :
    Fr.sout1_A_0 c i arg2 harg2 arg3 harg3 arg4 harg4 arg5 harg5 arg6 harg6 hc0 hc1 x0 x1 x2 = k1_pay2 x0 x1 (k1_pay1 (F := F)) := by
  unfold Fr.sout1_A_0
  rw [View.read_writes_eq_canon _ _ _ (Fr.scover1_A_0 c i arg2 harg2 arg3 harg3 arg4 harg4 arg5 harg5 arg6 harg6 hc0 hc1 x0 x1 x2)]
  unfold Fr.kernelRun1_A
  dsimp only
  try sl_unfold_words
  rw [View.canon_cons_unit_zero (S := S1024x64) zero_off1, View.readCov_unit_zero (S := S1024x64) _ zero_off1]
  simp only [View.readAt_eq_ld, harg2.read_unread, harg3.read_unread,
    View.ld_unit_zero (S := S1024x2048) zero_off1, View.ld_unit_zero (S := S2048x64) zero_off1]

/-- The last point of a row block adds the product of its two blocks onto the accumulator, -/
theorem soutC_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬Fr.cond1_0 i) (hc1 : Fr.cond1_1 i)
    (x0 : Vec F S1024x2048 .f32) (x1 : Vec F S2048x64 .f32) (x2 : Vec F S1024x1 .f32) (xs0 : Vec F S1024x64 .f32) :
    Fr.sout1_C_0 c i arg2 harg2 arg3 harg3 arg4 harg4 arg5 harg5 arg6 harg6 hc0 hc1 x0 x1 x2 xs0 = k1_pay2 x0 x1 xs0 := by
  unfold Fr.sout1_C_0
  rw [View.read_writes_eq_canon _ _ _ (Fr.scover1_C_0 c i arg2 harg2 arg3 harg3 arg4 harg4 arg5 harg5 arg6 harg6 hc0 hc1 x0 x1 x2 xs0)]
  unfold Fr.kernelRun1_C
  dsimp only
  try sl_unfold_words
  rw [View.canon_unit_zero zero_off1]
  simp only [View.readAt_eq_ld, harg2.read_unread, harg3.read_unread, harg6.read_unread,
    View.ld_unit_zero (S := S1024x2048) zero_off1, View.ld_unit_zero (S := S2048x64) zero_off1, View.ld_unit_zero (S := S1024x64) zero_off1]

/-- and stores the accumulator, its rows scaled by the filter column's block, into the result's block. -/
theorem outC_eq (c : Dev nD) (i : grid1.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S1024x64 .f32) (harg5 : arg5.IsWhole) (arg6 : Memref sig .tc .vmem S1024x64 .f32) (harg6 : arg6.IsWhole) (hc0 : ¬Fr.cond1_0 i) (hc1 : Fr.cond1_1 i)
    (x0 : Vec F S1024x2048 .f32) (x1 : Vec F S2048x64 .f32) (x2 : Vec F S1024x1 .f32) (xs0 : Vec F S1024x64 .f32) :
    Fr.out1_C_3 c i arg2 harg2 arg3 harg3 arg4 harg4 arg5 harg5 arg6 harg6 hc0 hc1 x0 x1 x2 xs0 = k1_pay3 (k1_pay2 x0 x1 xs0) x2 := by
  unfold Fr.out1_C_3
  rw [View.read_writes_eq_canon _ _ _ (Fr.cover1_C_3 c i arg2 harg2 arg3 harg3 arg4 harg4 arg5 harg5 arg6 harg6 hc0 hc1 x0 x1 x2 xs0)]
  unfold Fr.kernelRun1_C
  dsimp only
  try sl_unfold_words
  rw [View.canon_unit_zero zero_off1, View.readCov_unit_zero (S := S1024x64) _ zero_off1]
  simp only [View.readAt_eq_ld, harg2.read_unread, harg3.read_unread, harg4.read_unread, harg6.read_unread,
    View.ld_unit_zero (S := S1024x2048) zero_off1, View.ld_unit_zero (S := S2048x64) zero_off1, View.ld_unit_zero (S := S1024x64) zero_off1, View.ld_unit_zero (S := S1024x1) zero_off1]

section Math

-- the TensorCore's buffer contents when the region is entered
variable (V : (c : Dev nD) → (b : Ref sig .tc) → Buf (Elt Ideal) ((c : Thread nD τ).loc b))

/-- One term of the contraction of B with T at entry e. -/
def specTerm (B : Cert.Spec.SBig.Idx → EReal) (T : Cert.Spec.SOut.Idx → EReal) (e : Cert.Spec.SOut.Idx) (k : Fin 8192) : EReal :=
  B (ix2 (Cert.Spec.row e) k) * T (ix2 k (Cert.Spec.lane e))

/-- The windows' block indices over the grid of 8 × 4 points, point t at row block t / 4 and contraction block
    t % 4: the left factor's block is (t / 4, t % 4), the right factor's (t % 4, 0), the filter column's and the
    result's (t / 4, 0). -/
theorem idx_facts1 : ∀ t : Fin cfg1.N, win1_0.index t (0 : Fin 2) = t.val / 4
    ∧ win1_0.index t (1 : Fin 2) = t.val % 4
    ∧ win1_1.index t (0 : Fin 2) = t.val % 4
    ∧ win1_1.index t (1 : Fin 2) = 0
    ∧ win1_2.index t (0 : Fin 2) = t.val / 4
    ∧ win1_2.index t (1 : Fin 2) = 0
    ∧ win1_3.index t (0 : Fin 2) = t.val / 4
    ∧ win1_3.index t (1 : Fin 2) = 0 :=
  (by decide +kernel : ∀ t : Fin grid1.N, _)

/-- Every block of rows of the result is written back by some point. -/
theorem idx_onto1 : ∀ q0 : Fin 8, ∃ t : Fin cfg1.N, (cfg1.win 3).flush t = true ∧ win1_3.index t = ![q0.val, 0] :=
  (by decide +kernel : ∀ q0 : Fin 8, ∃ t : Fin grid1.N, win1_3.flush t = true ∧ win1_3.index t = ![q0.val, 0])

/-- The product of two blocks at entry j: the sum over the 2048 positions of the block. -/
def blockSum (x0 : Vec Ideal S1024x2048 .f32) (x1 : Vec Ideal S2048x64 .f32) (j : S1024x64.Idx) : Elt Ideal .f32 :=
  ∑ kk : Fin 2048, x0 (ix2 (rw1 j) kk) * x1 (ix2 kk (ln j))

/-- The product of point t's two blocks at entry j of the accumulator. -/
def blockProd (c : Dev nD) (t : Fin cfg1.N) (j : S1024x64.Idx) : Elt Ideal .f32 :=
  blockSum (Fr.iblk1 V c 0 t) (Fr.iblk1 V c 1 t) j

/-- The part of the contraction of B with T over block b of the contraction axis, at entry e. -/
def specBlock (B : Cert.Spec.SBig.Idx → EReal) (T : Cert.Spec.SOut.Idx → EReal) (e : Cert.Spec.SOut.Idx) (b : Fin 4) : EReal :=
  ∑ kk : Fin 2048, B (ix2 (Cert.Spec.row e) ⟨2048 * b.val + kk.val, by omega⟩) * T (ix2 ⟨2048 * b.val + kk.val, by omega⟩ (Cert.Spec.lane e))

/-- Point t's block product at entry j is the part of the contraction of B with T over block t % 4 of the
    contraction axis, at the entry e of the whole arrays that j is in row block t / 4. -/
theorem blockProd_eq (c : Dev nD) (t : Fin cfg1.N) (j : S1024x64.Idx) (e : Cert.Spec.SOut.Idx) (b : Fin 4)
    (hb : t.val % 4 = b.val) (he0 : (e 0).val = 1024 * (t.val / 4) + (j 0).val) (he1 : (e 1).val = (j 1).val) :
    blockProd V c t j = specBlock (V c main_arg4) (V c main_v0) e b := by
  obtain ⟨e0, e1, e2, e3, -, -, -, -⟩ := idx_facts1 t
  unfold blockProd blockSum specBlock
  refine Finset.sum_congr rfl fun kk _ => ?_
  have hj0 : (j 0).val < 1024 := idx2_lt0 j
  have hj1 : (j 1).val < 64 := idx2_lt1 j
  congr 1
  · show V c main_arg4 (((cfg1.win 0).blk t).view.emb _) = V c main_arg4 _
    congr 1; funext a; apply Fin.ext
    match a with
    | ⟨0, _⟩ => show win1_0.index t (0 : Fin 2) * 1024 + 1 * (j 0).val = (e 0).val; omega
    | ⟨1, _⟩ => show win1_0.index t (1 : Fin 2) * 2048 + 1 * kk.val = 2048 * b.val + kk.val; omega
  · show V c main_v0 (((cfg1.win 1).blk t).view.emb _) = V c main_v0 _
    congr 1; funext a; apply Fin.ext
    match a with
    | ⟨0, _⟩ => show win1_1.index t (0 : Fin 2) * 2048 + 1 * kk.val = 2048 * b.val + kk.val; omega
    | ⟨1, _⟩ => show win1_1.index t (1 : Fin 2) * 64 + 1 * (j 1).val = (e 1).val; omega

/-- The filter column's block at point t, at the row of entry j, is the column at the row of e. -/
theorem colBlock_eq (c : Dev nD) (t : Fin cfg1.N) (j : S1024x64.Idx) (e : Cert.Spec.SOut.Idx)
    (he0 : (e 0).val = 1024 * (t.val / 4) + (j 0).val) :
    (Fr.iblk1 V c 2 t : Vec Ideal S1024x1 .f32) (ix2 (rw1 j) (0 : Fin 1))
      = (V c main_v1 : Cert.Spec.SCol.Idx → EReal) (ix2 (Cert.Spec.row e) (0 : Fin 1)) := by
  obtain ⟨-, -, -, -, e4, e5, -, -⟩ := idx_facts1 t
  show V c main_v1 (((cfg1.win 2).blk t).view.emb _) = V c main_v1 _
  congr 1; funext a; apply Fin.ext
  match a with
  | ⟨0, _⟩ => show win1_2.index t (0 : Fin 2) * 1024 + 1 * (j 0).val = (e 0).val; omega
  | ⟨1, _⟩ => show win1_2.index t (1 : Fin 2) * 1 + 1 * 0 = 0; omega

/-- An index of the result array is in point t's block iff each coordinate is in the block's range on its axis. -/
theorem mem_blk1 (t : Fin cfg1.N) (i : S8192x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v2).slice (win1_3.rect t)).set ↔ _
  rw [View.set_slice_whole, Rect.mem_set_unit]
  exact Iff.rfl

/-- Every index of the result array is in the block of a point that writes back: row r is in the block of the last
    point of row block r / 1024. -/
theorem cover1 (i : S8192x64.Idx) : ∃ t : Fin cfg1.N, (cfg1.win 3).flush t = true ∧ i ∈ ((cfg1.win 3).blk t).view.set := by
  have hi0 : (i 0).val < 8192 := (i 0).isLt
  have hi1 : (i 1).val < 64 := (i 1).isLt
  obtain ⟨t, hf, ht⟩ := idx_onto1 ⟨(i 0).val / 1024, by omega⟩
  have q0 : win1_3.index t (0 : Fin 2) = (i 0).val / 1024 := congrFun ht 0
  have q1 : win1_3.index t (1 : Fin 2) = 0 := congrFun ht 1
  refine ⟨t, hf, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 64 ≤ (i 1).val ∧ (i 1).val < win1_3.index t (1 : Fin 2) * 64 + 64; omega

end Math

section Acc

variable (V : (c : Dev nD) → (b : Ref sig .tc) → Buf (Elt Ideal) ((c : Thread nD τ).loc b))

/-! ## The accumulator, point by point -/

/-- What the buffers hold after a point depends on the point's number only. -/
theorem outsAt1_congr (c : Dev nD) (n n' : ℕ) (h : n < cfg1.N) (h' : n' < cfg1.N) (e : n = n') :
    Fr.outsAt1 V c n h = Fr.outsAt1 V c n' h' := by
  subst e; rfl

/-- At the first point of a row block the accumulator ends at zero plus the point's block product. -/
theorem acc_reset (c : Dev nD) (t : Fin cfg1.N) (h0 : t.val % 4 = 0) (j : S1024x64.Idx) :
    (Fr.outsAt1 V c t.val t.isLt).2 j = 0 + blockProd V c t j := by
  rw [Fr.outsAt1_A V c t h0 (by omega)]
  dsimp only
  rw [soutA_eq, k1_pay2_apply, k1_pay1_apply]
  rfl

/-- At every other point it gains the point's block product onto what the point before (s) left. -/
theorem acc_step (c : Dev nD) (t s : Fin cfg1.N) (hs : s.val + 1 = t.val) (h0 : ¬t.val % 4 = 0) (j : S1024x64.Idx) :
    (Fr.outsAt1 V c t.val t.isLt).2 j = (Fr.outsAt1 V c s.val s.isLt).2 j + blockProd V c t j := by
  have hp : t.val - 1 = s.val := by omega
  by_cases h1 : t.val % 4 = 3
  · rw [Fr.outsAt1_C V c t h0 h1]
    dsimp only
    rw [soutC_eq, k1_pay2_apply, outsAt1_congr V c (t.val - 1) s.val _ s.isLt hp]
    rfl
  · rw [Fr.outsAt1_B V c t h0 h1]
    dsimp only
    rw [soutB_eq, k1_pay2_apply, outsAt1_congr V c (t.val - 1) s.val _ s.isLt hp]
    rfl

/-- At the last point of a row block the result's staging buffer ends at the accumulator's final value, its rows
    scaled by the filter column's block. -/
theorem out_last (c : Dev nD) (t s : Fin cfg1.N) (hs : s.val + 1 = t.val) (h1 : t.val % 4 = 3) (j : S1024x64.Idx) :
    (Fr.outsAt1 V c t.val t.isLt).1 j
      = ((Fr.outsAt1 V c s.val s.isLt).2 j + blockProd V c t j) * (Fr.iblk1 V c 2 t : Vec Ideal S1024x1 .f32) (ix2 (rw1 j) (0 : Fin 1)) := by
  have hp : t.val - 1 = s.val := by omega
  rw [Fr.outsAt1_C V c t (by omega) h1]
  dsimp only
  rw [outC_eq, k1_pay3_apply, k1_pay2_apply, outsAt1_congr V c (t.val - 1) s.val _ s.isLt hp]
  rfl

/-! ## From the blocks to the array -/

/-- What a point that writes back writes is its block of S = diag(f) · (B · T): the four block products of its row
    block, added in order onto zero, are the contraction over the whole axis cut into its four blocks. -/
theorem flushed1_eq (c : Dev nD) (t : Fin cfg1.N) (hf : (cfg1.win 3).flush t = true) :
    (Fr.dat1 V c).flushed 3 t = ((cfg1.win 3).blk t).view.read (Elt Ideal) (Cert.Spec.S (V c main_arg4) (V c main_v0) (V c main_v1)) := by
  have h3 : t.val % 4 = 3 := (flush1_3 t).mp hf
  have hN : cfg1.N = 32 := N_1
  have hlt : t.val < cfg1.N := t.isLt
  show (cfg1.win 3).cut (grid1.coords t) ((Fr.dat1 V c).after 3 t) = _
  rw [Fr.after1_3]
  funext j
  show (Fr.outsAt1 V c t.val t.isLt).1 j
    = Cert.Spec.S (V c main_arg4) (V c main_v0) (V c main_v1) (((cfg1.win 3).blk t).view.emb j)
  have hj0 : (j 0).val < 1024 := idx2_lt0 j
  have hj1 : (j 1).val < 64 := idx2_lt1 j
  obtain ⟨-, -, -, -, -, -, e6, e7⟩ := idx_facts1 t
  have he0 : ((((cfg1.win 3).blk t).view.emb j) 0).val = 1024 * (t.val / 4) + (j 0).val := by
    show win1_3.index t (0 : Fin 2) * 1024 + 1 * (j 0).val = _; omega
  have he1 : ((((cfg1.win 3).blk t).view.emb j) 1).val = (j 1).val := by
    show win1_3.index t (1 : Fin 2) * 64 + 1 * (j 1).val = _; omega
  generalize ((cfg1.win 3).blk t).view.emb j = e at he0 he1 ⊢
  rw [out_last V c t ⟨t.val - 1, by omega⟩ (by show t.val - 1 + 1 = t.val; omega) h3 j,
    acc_step V c ⟨t.val - 1, by omega⟩ ⟨t.val - 2, by omega⟩ (by show t.val - 2 + 1 = t.val - 1; omega) (by show ¬(t.val - 1) % 4 = 0; omega) j,
    acc_step V c ⟨t.val - 2, by omega⟩ ⟨t.val - 3, by omega⟩ (by show t.val - 3 + 1 = t.val - 2; omega) (by show ¬(t.val - 2) % 4 = 0; omega) j,
    acc_reset V c ⟨t.val - 3, by omega⟩ (by show (t.val - 3) % 4 = 0; omega) j,
    blockProd_eq V c ⟨t.val - 3, by omega⟩ j e 0 (by show (t.val - 3) % 4 = 0; omega) (by show (e 0).val = 1024 * ((t.val - 3) / 4) + (j 0).val; omega) he1,
    blockProd_eq V c ⟨t.val - 2, by omega⟩ j e 1 (by show (t.val - 2) % 4 = 1; omega) (by show (e 0).val = 1024 * ((t.val - 2) / 4) + (j 0).val; omega) he1,
    blockProd_eq V c ⟨t.val - 1, by omega⟩ j e 2 (by show (t.val - 1) % 4 = 2; omega) (by show (e 0).val = 1024 * ((t.val - 1) / 4) + (j 0).val; omega) he1,
    blockProd_eq V c t j e 3 (by show t.val % 4 = 3; omega) he0 he1,
    colBlock_eq V c t j e he0]
  unfold Cert.Spec.S
  congr 1
  exact (Cert.Spec.acc_blocks (specBlock (V c main_arg4) (V c main_v0) e)).trans
    (Cert.Spec.sum_blocks (specTerm (V c main_arg4) (V c main_v0) e)).symm

/-- The result array after the region: S = diag(f) · (B · T) of the arrays as the region finds them. -/
theorem final1 (c : Dev nD) : (Fr.dat1 V c).arrAt 3 cfg1.N = Cert.Spec.S (V c main_arg4) (V c main_v0) (V c main_v1) :=
  (Fr.dat1 V c).arrAt_eq_of_cover 3 (Cert.Spec.S (V c main_arg4) (V c main_v0) (V c main_v1)) (flushed1_eq V c) cover1

end Acc

end Cert.KernelIdeal.Val

end
-- ==== Proof.SpecAcc.lean ====
/-
  A matrix product with contraction length 8192, accumulated block by block: the contraction axis is cut into 4
  blocks of 2048, `part` is one block's share of an entry, and an accumulator that starts at zero and adds the
  shares in order holds the entry of the product after the fourth block.
-/
import proofs.«141350_j68341519613981_1_alg».proof.Proof.Spec
import proofs.«141350_j68341519613981_1_alg».proof.Proof.SpecBlocks

noncomputable section

namespace Cert.Spec

open Idealize.ShloMosaic Idealize.ShloMosaic.ValueIdx

/-- Block `b`'s share of the entry (r, l) of a · t: the sum over the 2048 contraction indices of the block. -/
def part (a : SBig.Idx → EReal) (t : SOut.Idx → EReal) (r : Fin 8192) (l : Fin 64) (b : Fin 4) : EReal :=
  ∑ kk : Fin 2048, a (ix2 r ⟨2048 * b.val + kk.val, by omega⟩) * t (ix2 ⟨2048 * b.val + kk.val, by omega⟩ l)

/-- Zero plus the four shares in order is the entry of the product. -/
theorem mm_blocks (a : SBig.Idx → EReal) (t : SOut.Idx → EReal) (r : Fin 8192) (l : Fin 64) :
    (((0 + part a t r l 0) + part a t r l 1) + part a t r l 2) + part a t r l 3 = mm a t (ix2 r l) := by
  refine (acc_blocks (part a t r l)).trans ?_
  unfold mm
  rw [sum_blocks (fun k => a (ix2 (row (ix2 r l)) k) * t (ix2 k (lane (ix2 r l))))]
  rfl

/-- The accumulator after the blocks 0 … n: zero plus the first share, then one more share per block
    (nothing more once the four blocks are exhausted). -/
def accUpTo (a : SBig.Idx → EReal) (t : SOut.Idx → EReal) (r : Fin 8192) (l : Fin 64) : ℕ → EReal
  | 0 => 0 + part a t r l 0
  | (n + 1) => accUpTo a t r l n + (if h : n + 1 < 4 then part a t r l ⟨n + 1, h⟩ else 0)

theorem accUpTo_zero (a : SBig.Idx → EReal) (t : SOut.Idx → EReal) (r : Fin 8192) (l : Fin 64) :
    accUpTo a t r l 0 = 0 + part a t r l 0 := rfl

theorem accUpTo_succ (a : SBig.Idx → EReal) (t : SOut.Idx → EReal) (r : Fin 8192) (l : Fin 64) (n : ℕ) (h : n + 1 < 4) :
    accUpTo a t r l (n + 1) = accUpTo a t r l n + part a t r l ⟨n + 1, h⟩ := by
  show accUpTo a t r l n + (if h : n + 1 < 4 then part a t r l ⟨n + 1, h⟩ else 0) = _
  rw [dif_pos h]

/-- After the fourth block the accumulator is the entry of the product. -/
theorem accUpTo_three (a : SBig.Idx → EReal) (t : SOut.Idx → EReal) (r : Fin 8192) (l : Fin 64) :
    accUpTo a t r l 3 = mm a t (ix2 r l) := by
  rw [accUpTo_succ a t r l 2 (by omega), accUpTo_succ a t r l 1 (by omega), accUpTo_succ a t r l 0 (by omega), accUpTo_zero]
  exact mm_blocks a t r l

end Cert.Spec

end
-- ==== Proof.Value.Region2.lean ====
/-
  REGION 2's value at the extended reals: after the third kernel its output array is A · S, the wavelets times
  the scaled intermediate. The contraction axis of length 8192 is walked in 4 blocks of 2048 per block of 1024
  rows: the accumulator is zero plus the first block's share at the first block, gains one share per block, and
  after the fourth block holds the entry of the product, which is then copied to the output block.
-/
import proofs.«141350_j68341519613981_1_alg».proof.Proof.KernelIdeal.Region2.Data
import proofs.«141350_j68341519613981_1_alg».proof.Proof.Value.Payloads
import proofs.«141350_j68341519613981_1_alg».proof.Proof.SpecAcc
import Idealize.ShloMosaic.Lib.Pipeline.Value
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.ShloMosaic.Tactic Idealize.SL.Sem
open Idealize.ShloMosaic.Pipeline (Dat)
open Idealize.ShloMosaic.ValueIdx

/-! ## What each control case leaves, as the kernel's arithmetic on the blocks -/

section Pieces
variable {F : FTy → Type} [FloatOps F]

/-- The zero offsets of a whole-buffer access. -/
theorem zero_off2 : (![0, 0] : Fin 2 → Nat) = fun _ => 0 := funext fun a => by fin_cases a <;> rfl

/-- First block of a row block: the accumulator is set to zero and then gains the product of the two blocks. -/
theorem sout2_A_0_eq (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : Fr.cond2_0 i) (hc1 : ¬Fr.cond2_1 i)
    (x0 : Vec F S1024x2048 .f32) (x1 : Vec F S2048x64 .f32) :
    Fr.sout2_A_0 c i arg2 harg2 arg3 harg3 arg4 harg4 arg5 harg5 hc0 hc1 x0 x1 = k2_pay2 x0 x1 (k2_pay1 (F := F)) := by
  unfold Fr.sout2_A_0
  rw [View.read_writes_eq_canon _ _ _ (Fr.scover2_A_0 c i arg2 harg2 arg3 harg3 arg4 harg4 arg5 harg5 hc0 hc1 x0 x1)]
  unfold Fr.kernelRun2_A
  dsimp only
  sl_unfold_words
  rw [View.canon_cons_unit_zero (S := S1024x64) zero_off2]
  simp only [View.readAt_eq_ld, harg2.read_unread, harg3.read_unread, View.ld_unit_zero (S := S1024x2048) zero_off2, View.ld_unit_zero (S := S2048x64) zero_off2, View.readCov_unit_zero (S := S1024x64) _ zero_off2]

/-- A middle block: the accumulator gains the product of the two blocks. -/
theorem sout2_B_0_eq (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬Fr.cond2_0 i) (hc1 : ¬Fr.cond2_1 i)
    (x0 : Vec F S1024x2048 .f32) (x1 : Vec F S2048x64 .f32) (xs0 : Vec F S1024x64 .f32) :
    Fr.sout2_B_0 c i arg2 harg2 arg3 harg3 arg4 harg4 arg5 harg5 hc0 hc1 x0 x1 xs0 = k2_pay2 x0 x1 xs0 := by
  unfold Fr.sout2_B_0
  rw [View.read_writes_eq_canon _ _ _ (Fr.scover2_B_0 c i arg2 harg2 arg3 harg3 arg4 harg4 arg5 harg5 hc0 hc1 x0 x1 xs0)]
  unfold Fr.kernelRun2_B
  dsimp only
  sl_unfold_words
  rw [View.canon_unit_zero (S := S1024x64) zero_off2]
  simp only [View.readAt_eq_ld, harg2.read_unread, harg3.read_unread, harg5.read_unread, View.ld_unit_zero (S := S1024x2048) zero_off2, View.ld_unit_zero (S := S2048x64) zero_off2, View.ld_unit_zero (S := S1024x64) zero_off2]

/-- The last block: the accumulator gains the product of the two blocks … -/
theorem sout2_C_0_eq (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬Fr.cond2_0 i) (hc1 : Fr.cond2_1 i)
    (x0 : Vec F S1024x2048 .f32) (x1 : Vec F S2048x64 .f32) (xs0 : Vec F S1024x64 .f32) :
    Fr.sout2_C_0 c i arg2 harg2 arg3 harg3 arg4 harg4 arg5 harg5 hc0 hc1 x0 x1 xs0 = k2_pay2 x0 x1 xs0 := by
  unfold Fr.sout2_C_0
  rw [View.read_writes_eq_canon _ _ _ (Fr.scover2_C_0 c i arg2 harg2 arg3 harg3 arg4 harg4 arg5 harg5 hc0 hc1 x0 x1 xs0)]
  unfold Fr.kernelRun2_C
  dsimp only
  sl_unfold_words
  rw [View.canon_unit_zero (S := S1024x64) zero_off2]
  simp only [View.readAt_eq_ld, harg2.read_unread, harg3.read_unread, harg5.read_unread, View.ld_unit_zero (S := S1024x2048) zero_off2, View.ld_unit_zero (S := S2048x64) zero_off2, View.ld_unit_zero (S := S1024x64) zero_off2]

/-- … and the output block receives the accumulator read back. -/
theorem out2_C_2_eq (c : Dev nD) (i : grid2.Coords) (arg2 : Memref sig .tc .vmem S1024x2048 .f32) (harg2 : arg2.IsWhole) (arg3 : Memref sig .tc .vmem S2048x64 .f32) (harg3 : arg3.IsWhole) (arg4 : Memref sig .tc .vmem S1024x64 .f32) (harg4 : arg4.IsWhole) (arg5 : Memref sig .tc .vmem S1024x64 .f32) (harg5 : arg5.IsWhole) (hc0 : ¬Fr.cond2_0 i) (hc1 : Fr.cond2_1 i)
    (x0 : Vec F S1024x2048 .f32) (x1 : Vec F S2048x64 .f32) (xs0 : Vec F S1024x64 .f32) :
    Fr.out2_C_2 c i arg2 harg2 arg3 harg3 arg4 harg4 arg5 harg5 hc0 hc1 x0 x1 xs0 = k2_pay2 x0 x1 xs0 := by
  unfold Fr.out2_C_2
  rw [View.read_writes_eq_canon _ _ _ (Fr.cover2_C_2 c i arg2 harg2 arg3 harg3 arg4 harg4 arg5 harg5 hc0 hc1 x0 x1 xs0)]
  unfold Fr.kernelRun2_C
  dsimp only
  sl_unfold_words
  rw [View.canon_unit_zero (S := S1024x64) zero_off2, View.readCov_unit_zero (S := S1024x64) _ zero_off2]
  simp only [View.readAt_eq_ld, harg2.read_unread, harg3.read_unread, harg5.read_unread, View.ld_unit_zero (S := S1024x2048) zero_off2, View.ld_unit_zero (S := S2048x64) zero_off2, View.ld_unit_zero (S := S1024x64) zero_off2]

end Pieces

/-! ## The blocks read at the arrays -/

-- the TensorCore's buffer contents when the region is entered
variable (V : (c : Dev nD) → (b : Ref sig .tc) → Buf (Elt Ideal) ((c : Thread nD τ).loc b))

/-- The left factor A and the right factor S as the region finds them, and their blocks at point t. -/
abbrev Aarr2 (c : Dev nD) : Vec Ideal S8192x8192 .f32 := V c main_arg3
abbrev Sarr2 (c : Dev nD) : Vec Ideal S8192x64 .f32 := V c main_v2
abbrev xblk2 (c : Dev nD) (t : Fin cfg2.N) : Vec Ideal S1024x2048 .f32 := Fr.iblk2 V c 0 t
abbrev yblk2 (c : Dev nD) (t : Fin cfg2.N) : Vec Ideal S2048x64 .f32 := Fr.iblk2 V c 1 t

/-- The block indices over the 32 points t = 4 i + k: the left block sits at (i, k), the right block at (k, 0),
    the output block at (i, 0). -/
theorem idx_facts2 : ∀ t : Fin cfg2.N, t.val < 32
    ∧ win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

/-- The left block's entry (j0, kk) is A's entry (1024 i + j0, 2048 k + kk). -/
theorem xblk2_apply (c : Dev nD) (t : Fin cfg2.N) (j0 : Fin 1024) (kk : Fin 2048) (r k : Fin 8192)
    (hr : r.val = 1024 * (t.val / 4) + j0.val) (hk : k.val = 2048 * (t.val % 4) + kk.val) :
    xblk2 V c t (ix2 j0 kk) = Aarr2 V c (ix2 r k) := by
  obtain ⟨_, e0, e1, _, _, _, _⟩ := idx_facts2 t
  show V c main_arg3 (((cfg2.win 0).blk t).view.emb (ix2 j0 kk)) = V c main_arg3 (ix2 r k)
  congr 1; funext a; apply Fin.ext
  match a with
  | ⟨0, _⟩ => show win2_0.index t (0 : Fin 2) * 1024 + 1 * j0.val = r.val; omega
  | ⟨1, _⟩ => show win2_0.index t (1 : Fin 2) * 2048 + 1 * kk.val = k.val; omega

/-- The right block's entry (kk, j1) is S's entry (2048 k + kk, j1). -/
theorem yblk2_apply (c : Dev nD) (t : Fin cfg2.N) (kk : Fin 2048) (j1 : Fin 64) (k : Fin 8192)
    (hk : k.val = 2048 * (t.val % 4) + kk.val) :
    yblk2 V c t (ix2 kk j1) = Sarr2 V c (ix2 k j1) := by
  obtain ⟨_, _, _, e0, e1, _, _⟩ := idx_facts2 t
  show V c main_v2 (((cfg2.win 1).blk t).view.emb (ix2 kk j1)) = V c main_v2 (ix2 k j1)
  congr 1; funext a; apply Fin.ext
  match a with
  | ⟨0, _⟩ => show win2_1.index t (0 : Fin 2) * 2048 + 1 * kk.val = k.val; omega
  | ⟨1, _⟩ => show win2_1.index t (1 : Fin 2) * 64 + 1 * j1.val = j1.val; omega

/-- The product of the two blocks at point t = 4 i + k, entry (j0, j1): block k's share of the entry
    (1024 i + j0, j1) of A · S. -/
theorem blockprod2 (c : Dev nD) (t : Fin cfg2.N) (j0 : Fin 1024) (j1 : Fin 64) (r : Fin 8192) (b : Fin 4)
    (hr : r.val = 1024 * (t.val / 4) + j0.val) (hb : b.val = t.val % 4) :
    ∑ kk : Fin 2048, xblk2 V c t (ix2 j0 kk) * yblk2 V c t (ix2 kk j1)
      = Cert.Spec.part (Aarr2 V c) (Sarr2 V c) r j1 b := by
  unfold Cert.Spec.part
  refine Finset.sum_congr rfl fun kk _ => ?_
  rw [xblk2_apply V c t j0 kk r ⟨2048 * b.val + kk.val, by omega⟩ hr (by show 2048 * b.val + kk.val = _; omega),
    yblk2_apply V c t kk j1 ⟨2048 * b.val + kk.val, by omega⟩ (by show 2048 * b.val + kk.val = _; omega)]

/-- One step of the accumulation at point t, entry (j0, j1): the accumulator's entry plus block k's share. -/
theorem step2_apply (c : Dev nD) (t : Fin cfg2.N) (acc : Vec Ideal S1024x64 .f32) (j0 : Fin 1024) (j1 : Fin 64)
    (r : Fin 8192) (b : Fin 4) (hr : r.val = 1024 * (t.val / 4) + j0.val) (hb : b.val = t.val % 4) :
    k2_pay2 (F := Ideal) (xblk2 V c t) (yblk2 V c t) acc (ix2 j0 j1)
      = acc (ix2 j0 j1) + Cert.Spec.part (Aarr2 V c) (Sarr2 V c) r j1 b := by
  rw [k2_pay2_apply]
  exact congrArg (acc (ix2 j0 j1) + ·) (blockprod2 V c t j0 j1 r b hr hb)

/-! ## The accumulator after every point -/

/-- After point n = 4 i + k the accumulator's entry (j0, j1) is zero plus the shares of the blocks 0 … k of the
    entry (1024 i + j0, j1) of A · S. -/
theorem acc2_inv (c : Dev nD) : ∀ (n : ℕ) (hn : n < cfg2.N) (j0 : Fin 1024) (j1 : Fin 64) (r : Fin 8192),
    r.val = 1024 * (n / 4) + j0.val →
    (Fr.outsAt2 V c n hn).2 (ix2 j0 j1) = Cert.Spec.accUpTo (Aarr2 V c) (Sarr2 V c) r j1 (n % 4) := by
  -- a point at the first block of its row block: reset, then the first share
  have caseA : ∀ (n : ℕ) (hn : n < cfg2.N) (h0 : n % 4 = 0) (j0 : Fin 1024) (j1 : Fin 64) (r : Fin 8192),
      r.val = 1024 * (n / 4) + j0.val →
      (Fr.outsAt2 V c n hn).2 (ix2 j0 j1) = Cert.Spec.accUpTo (Aarr2 V c) (Sarr2 V c) r j1 (n % 4) := by
    intro n hn h0 j0 j1 r hr
    have h1 : ¬n % 4 = 3 := by omega
    rw [Fr.outsAt2_A V c ⟨n, hn⟩ h0 h1]
    dsimp only
    refine (congrFun (sout2_A_0_eq (F := Ideal) c (grid2.coords ⟨n, hn⟩) (Fr.ms2_0 ⟨n, hn⟩) (Fr.hs2_0 ⟨n, hn⟩) (Fr.ms2_1 ⟨n, hn⟩) (Fr.hs2_1 ⟨n, hn⟩) (Fr.ms2_2 ⟨n, hn⟩) (Fr.hs2_2 ⟨n, hn⟩) Fr.scM2_0 (Memref.isWhole_whole _) ((Fr.hcond2_0 ⟨n, hn⟩).mpr h0) (fun h => h1 ((Fr.hcond2_1 ⟨n, hn⟩).mp h)) (Fr.iblk2 V c 0 ⟨n, hn⟩) (Fr.iblk2 V c 1 ⟨n, hn⟩)) (ix2 j0 j1)).trans ?_
    refine (step2_apply V c ⟨n, hn⟩ (k2_pay1 (F := Ideal)) j0 j1 r 0 hr h0.symm).trans ?_
    rw [k2_pay1_apply, h0]
    rfl
  intro n
  induction n with
  | zero => intro hn; exact caseA 0 hn (Nat.zero_mod 4)
  | succ m ih =>
    intro hn j0 j1 r hr
    by_cases h0 : (m + 1) % 4 = 0
    · exact caseA (m + 1) hn h0 j0 j1 r hr
    · have hm : m < cfg2.N := Nat.lt_of_succ_lt hn
      have hprev := ih hm j0 j1 r (by omega)
      have hstep : (m + 1) % 4 = m % 4 + 1 := by omega
      have hlt : m % 4 + 1 < 4 := by omega
      by_cases h1 : (m + 1) % 4 = 3
      · rw [Fr.outsAt2_C V c ⟨m + 1, hn⟩ h0 h1]
        dsimp only
        refine (congrFun (sout2_C_0_eq (F := Ideal) c (grid2.coords ⟨m + 1, hn⟩) (Fr.ms2_0 ⟨m + 1, hn⟩) (Fr.hs2_0 ⟨m + 1, hn⟩) (Fr.ms2_1 ⟨m + 1, hn⟩) (Fr.hs2_1 ⟨m + 1, hn⟩) (Fr.ms2_2 ⟨m + 1, hn⟩) (Fr.hs2_2 ⟨m + 1, hn⟩) Fr.scM2_0 (Memref.isWhole_whole _) (fun h => h0 ((Fr.hcond2_0 ⟨m + 1, hn⟩).mp h)) ((Fr.hcond2_1 ⟨m + 1, hn⟩).mpr h1) (Fr.iblk2 V c 0 ⟨m + 1, hn⟩) (Fr.iblk2 V c 1 ⟨m + 1, hn⟩) (Fr.outsAt2 V c m hm).2) (ix2 j0 j1)).trans ?_
        refine (step2_apply V c ⟨m + 1, hn⟩ (Fr.outsAt2 V c m hm).2 j0 j1 r ⟨m % 4 + 1, hlt⟩ hr hstep.symm).trans ?_
        rw [hprev, hstep, Cert.Spec.accUpTo_succ (Aarr2 V c) (Sarr2 V c) r j1 (m % 4) hlt]
      · rw [Fr.outsAt2_B V c ⟨m + 1, hn⟩ h0 h1]
        dsimp only
        refine (congrFun (sout2_B_0_eq (F := Ideal) c (grid2.coords ⟨m + 1, hn⟩) (Fr.ms2_0 ⟨m + 1, hn⟩) (Fr.hs2_0 ⟨m + 1, hn⟩) (Fr.ms2_1 ⟨m + 1, hn⟩) (Fr.hs2_1 ⟨m + 1, hn⟩) (Fr.ms2_2 ⟨m + 1, hn⟩) (Fr.hs2_2 ⟨m + 1, hn⟩) Fr.scM2_0 (Memref.isWhole_whole _) (fun h => h0 ((Fr.hcond2_0 ⟨m + 1, hn⟩).mp h)) (fun h => h1 ((Fr.hcond2_1 ⟨m + 1, hn⟩).mp h)) (Fr.iblk2 V c 0 ⟨m + 1, hn⟩) (Fr.iblk2 V c 1 ⟨m + 1, hn⟩) (Fr.outsAt2 V c m hm).2) (ix2 j0 j1)).trans ?_
        refine (step2_apply V c ⟨m + 1, hn⟩ (Fr.outsAt2 V c m hm).2 j0 j1 r ⟨m % 4 + 1, hlt⟩ hr hstep.symm).trans ?_
        rw [hprev, hstep, Cert.Spec.accUpTo_succ (Aarr2 V c) (Sarr2 V c) r j1 (m % 4) hlt]

/-- At a last block the output block receives what the accumulator holds. -/
theorem out2_eq_acc (c : Dev nD) (t : Fin cfg2.N) (h0 : ¬t.val % 4 = 0) (h1 : t.val % 4 = 3) :
    (Fr.outsAt2 V c t.val t.isLt).1 = (Fr.outsAt2 V c t.val t.isLt).2 := by
  rw [Fr.outsAt2_C V c t h0 h1]
  dsimp only
  exact (out2_C_2_eq (F := Ideal) c (grid2.coords t) (Fr.ms2_0 t) (Fr.hs2_0 t) (Fr.ms2_1 t) (Fr.hs2_1 t) (Fr.ms2_2 t) (Fr.hs2_2 t) Fr.scM2_0 (Memref.isWhole_whole _) (fun h => h0 ((Fr.hcond2_0 t).mp h)) ((Fr.hcond2_1 t).mpr h1) (Fr.iblk2 V c 0 t) (Fr.iblk2 V c 1 t) (Fr.outsAt2 V c (t.val - 1) (Nat.lt_of_le_of_lt (Nat.sub_le _ _) t.isLt)).2).trans
    (sout2_C_0_eq (F := Ideal) c (grid2.coords t) (Fr.ms2_0 t) (Fr.hs2_0 t) (Fr.ms2_1 t) (Fr.hs2_1 t) (Fr.ms2_2 t) (Fr.hs2_2 t) Fr.scM2_0 (Memref.isWhole_whole _) (fun h => h0 ((Fr.hcond2_0 t).mp h)) ((Fr.hcond2_1 t).mpr h1) (Fr.iblk2 V c 0 t) (Fr.iblk2 V c 1 t) (Fr.outsAt2 V c (t.val - 1) (Nat.lt_of_le_of_lt (Nat.sub_le _ _) t.isLt)).2).symm

/-! ## The blocks written back, and the whole array -/

/-- The output block is written back exactly at the last blocks, the points ≡ 3 (mod 4). -/
theorem flush2_mod : ∀ t : Fin cfg2.N, (cfg2.win 2).flush t = true → t.val % 4 = 3 :=
  (by decide +kernel : ∀ t : Fin grid2.N, _)

/-- What a last point t = 4 i + 3 writes back is block i of A · S. -/
theorem flushed2_eq (c : Dev nD) (t : Fin cfg2.N) (hf : (cfg2.win 2).flush t = true) :
    (Fr.dat2 V c).flushed 2 t = ((cfg2.win 2).blk t).view.read (Elt Ideal) (Cert.Spec.mm (Aarr2 V c) (Sarr2 V c)) := by
  have h1 := flush2_mod t hf
  have h0 : ¬t.val % 4 = 0 := by omega
  obtain ⟨ht, _, _, _, _, e0, e1⟩ := idx_facts2 t
  show (cfg2.win 2).cut (grid2.coords t) ((Fr.dat2 V c).after 2 t) = _
  rw [Fr.after2_2, out2_eq_acc V c t h0 h1]
  refine funext fun (j : S1024x64.Idx) => ?_
  show (Fr.outsAt2 V c t.val t.isLt).2 j = Cert.Spec.mm (Aarr2 V c) (Sarr2 V c) (((cfg2.win 2).blk t).view.emb j)
  have hj0 := idx2_lt0 j
  have hj1 := idx2_lt1 j
  have key := acc2_inv V c t.val t.isLt ⟨(j 0).val, hj0⟩ ⟨(j 1).val, hj1⟩ ⟨1024 * (t.val / 4) + (j 0).val, by omega⟩ rfl
  have e3 : Cert.Spec.accUpTo (Aarr2 V c) (Sarr2 V c) ⟨1024 * (t.val / 4) + (j 0).val, by omega⟩ ⟨(j 1).val, hj1⟩ (t.val % 4)
      = Cert.Spec.mm (Aarr2 V c) (Sarr2 V c) (ix2 ⟨1024 * (t.val / 4) + (j 0).val, by omega⟩ ⟨(j 1).val, hj1⟩) := by
    rw [h1]; exact Cert.Spec.accUpTo_three _ _ _ _
  refine (congrArg (Fr.outsAt2 V c t.val t.isLt).2 (eq_ix2 j)).trans (key.trans (e3.trans ?_))
  congr 1; funext a; apply Fin.ext
  match a with
  | ⟨0, _⟩ => show 1024 * (t.val / 4) + (j 0).val = win2_2.index t (0 : Fin 2) * 1024 + 1 * (j 0).val; omega
  | ⟨1, _⟩ => show (j 1).val = win2_2.index t (1 : Fin 2) * 64 + 1 * (j 1).val; omega

/-- Every block of rows of the output is some last point's. -/
theorem idx_onto2 : ∀ q0 : Fin 8, ∃ t : Fin cfg2.N, (cfg2.win 2).flush t = true ∧ win2_2.index t = ![q0.val, 0] :=
  (by decide +kernel : ∀ q0 : Fin 8, ∃ t : Fin grid2.N, _)

/-- An index of the output array is in point t's block iff each coordinate is in the block's range on its axis. -/
theorem mem_blk2 (t : Fin cfg2.N) (i : S8192x64.Idx) :
    i ∈ ((cfg2.win 2).blk t).view.set ↔ ∀ a : Fin 2, win2_2.index t a * S1024x64.size a ≤ (i a).val ∧ (i a).val < win2_2.index t a * S1024x64.size a + S1024x64.size a := by
  show i ∈ ((View.whole main_v3).slice (win2_2.rect t)).set ↔ _
  rw [View.set_slice_whole, Rect.mem_set_unit]
  exact Iff.rfl

/-- Every index of the output array is in some written-back block: row r is in the block of the last point of
    row block r / 1024. -/
theorem cover2 (i : S8192x64.Idx) : ∃ t : Fin cfg2.N, (cfg2.win 2).flush t = true ∧ i ∈ ((cfg2.win 2).blk t).view.set := by
  have hi0 : (i 0).val < 8192 := (i 0).isLt
  have hi1 : (i 1).val < 64 := (i 1).isLt
  obtain ⟨t, hf, ht⟩ := idx_onto2 ⟨(i 0).val / 1024, by omega⟩
  have q0 : win2_2.index t (0 : Fin 2) = (i 0).val / 1024 := congrFun ht 0
  have q1 : win2_2.index t (1 : Fin 2) = 0 := congrFun ht 1
  refine ⟨t, hf, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 64 ≤ (i 1).val ∧ (i 1).val < win2_2.index t (1 : Fin 2) * 64 + 64; omega

/-- The output array after the region: A · S of the two arrays as the region finds them. -/
theorem final2 (c : Dev nD) : (Fr.dat2 V c).arrAt 2 cfg2.N = Cert.Spec.mm (V c main_arg3) (V c main_v2) :=
  (Fr.dat2 V c).arrAt_eq_of_cover 2 (Cert.Spec.mm (V c main_arg3) (V c main_v2)) (fun t hf => flushed2_eq V c t hf) cover2

end Cert.KernelIdeal.Val

end
-- ==== Proof.Value.Reshape.lean ====
/-
  Between the first and the second kernel the host reshapes the filter, a vector of length 8192, to a column
  [8192, 1]. A reshape keeps the row-major position of every element, and the position of (n, 0) in a column
  is n: the column holds f[n] at (n, 0). Every other array is left as it was.
-/
import proofs.«141350_j68341519613981_1_alg».proof.Proof.Gen.KernelIdeal.Regions
import proofs.«141350_j68341519613981_1_alg».proof.Proof.Spec
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.ValueIdx Idealize.ShloMosaic.TcCoe
open Idealize.SL.Sem

/-- A vector of length 8192 reshaped to a column, entry by entry: the entry (n, 0) is the vector's entry n,
    both sitting at row-major position n (n · 1 + 0 in the column). -/
theorem col_reshape (f : S8192.Idx → EReal) (h : S8192.ShapeCasts S8192x1) :
    shapeCast S8192x1 f h = Cert.Spec.col f := by
  funext j
  unfold Cert.Spec.col
  refine shapeCast_apply f h j (ix1 ⟨(j 0).val, idx2_lt0 j⟩) ?_
  rw [Shape.rowMajor_val_one, Shape.rowMajor_val_two]
  show (j 0).val = (j 0).val * 1 + (j 1).val
  have := idx2_lt1 j
  omega

/-- After the host stretch the column array holds the filter as a column, whatever the arrays held before. -/
theorem hostOps1_main_v1 (W : Valuation τ sig (Elt Ideal)) :
    StableHlo.after (hostOps1 (F := Ideal)) W (Proc.devRef .tc main_v1) = Cert.Spec.col (W (Proc.devRef .tc main_arg2)) := by
  show StableHlo.after hostOps1 _ (Proc.devRef .tc main_v1) = _
  after_results
  exact col_reshape _ _

/-- The host stretch writes the column array only: every other array keeps its contents. -/
theorem hostOps1_of_ne (W : Valuation τ sig (Elt Ideal)) (r : Ref sig .tc) (h : r ≠ main_v1) :
    StableHlo.after (hostOps1 (F := Ideal)) W (Proc.devRef .tc r) = W (Proc.devRef .tc r) :=
  StableHlo.after_of_writes_sub hostOps1 W hostOps1_writes (fun hm => h (List.mem_singleton.mp hm))

end Cert.KernelIdeal.Val

end
-- ==== Proof.Value.Final.lean ====
/-
  The kernel's result, named: region 2 leaves A · S in its result's array, where S is what region 1 left — the rows of
  B · T scaled by the filter column — over the T = x · w that region 0 left and the column the host reshape made of the
  filter; no boundary in between touches what a later region reads. So the program's result is Spec.G of the
  argument arrays.
-/
import proofs.«141350_j68341519613981_1_alg».proof.Proof.KernelIdeal.Run
import proofs.«141350_j68341519613981_1_alg».proof.Proof.Value.Region0
import proofs.«141350_j68341519613981_1_alg».proof.Proof.Value.Region1
import proofs.«141350_j68341519613981_1_alg».proof.Proof.Value.Region2
import proofs.«141350_j68341519613981_1_alg».proof.Proof.Value.Reshape

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ)

/-- Region 1 finds T in `main_v0`: region 0 wrote it, the reshape did not touch it. -/
theorem V2_main_v0 (c : Dev nD) : V2 m c main_v0 = Cert.Spec.T (m ((c : Thread nD τ).loc main_arg0)) (m ((c : Thread nD τ).loc main_arg1)) :=
  (hostOps1_of_ne (W1 m c) main_v0 (by decide)).trans ((W1_arr m c 2).trans (final0 (V0 m) c))

/-- Region 1 finds the filter as a column in `main_v1`. -/
theorem V2_main_v1 (c : Dev nD) : V2 m c main_v1 = Cert.Spec.col (m ((c : Thread nD τ).loc main_arg2)) :=
  (hostOps1_main_v1 (W1 m c)).trans (congrArg Cert.Spec.col (W1_of_ne m c main_arg2 (by decide)))

/-- Region 1 finds B as launched. -/
theorem V2_main_arg4 (c : Dev nD) : V2 m c main_arg4 = m ((c : Thread nD τ).loc main_arg4) :=
  (hostOps1_of_ne (W1 m c) main_arg4 (by decide)).trans (W1_of_ne m c main_arg4 (by decide))

/-- Region 2 finds A as launched, -/
theorem V3_main_arg3 (c : Dev nD) : V3 m c main_arg3 = m ((c : Thread nD τ).loc main_arg3) :=
  (W3_of_ne m c main_arg3 (by decide)).trans ((hostOps1_of_ne (W1 m c) main_arg3 (by decide)).trans (W1_of_ne m c main_arg3 (by decide)))

/-- and S in `main_v2`. -/
theorem V3_main_v2 (c : Dev nD) : V3 m c main_v2 = Cert.Spec.S (m ((c : Thread nD τ).loc main_arg4))
    (Cert.Spec.T (m ((c : Thread nD τ).loc main_arg0)) (m ((c : Thread nD τ).loc main_arg1))) (Cert.Spec.col (m ((c : Thread nD τ).loc main_arg2))) := by
  refine (W3_arr m c 3).trans ((final1 (V2 m) c).trans ?_)
  rw [V2_main_arg4, V2_main_v0, V2_main_v1]

/-- The result's array after the run is G of the arguments. -/
theorem result_eq (c : Dev nD) : (dat2 (V3 m) c).arrAt 2 cfg2.N
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) := by
  rw [final2 (V3 m) c, V3_main_arg3, V3_main_v2]
  rfl

end Cert.KernelIdeal.Val

end
-- ==== Proof.RefValue.lean ====
/-
  The reference program, read operation by operation, is the specification's arrangement R:
  out[n, o] = Σ_k (A[n, k] · f[k]) · (Σ_k' B[k, k'] · (Σ_i x[k', i] · w[i, o])).
  Each stage of the reference is one entry-by-entry formula; the proof identifies the index of every operand
  with the row/column index the specification uses and chains the stages from the innermost product outwards.
-/
import proofs.«141350_j68341519613981_1_alg».proof.Proof.Gen.ReferenceIdeal.Read
import proofs.«141350_j68341519613981_1_alg».proof.Proof.Spec

noncomputable section

namespace Cert.ReferenceIdeal.RefValue

open Idealize.ShloMosaic Idealize.ShloMosaic.ValueIdx Cert.ReferenceIdeal Cert.ReferenceIdeal.Read

/-! ## The operand indices of the three products are row/column indices -/

theorem lidx0_eq (i : S8192x64.Idx) (k : Fin 128) : lidx_main_v0 i k = ix2 (Cert.Spec.row i) k :=
  funext fun a => Fin.ext (by match a with | ⟨0, _⟩ => rfl | ⟨1, _⟩ => rfl)

theorem ridx0_eq (i : S8192x64.Idx) (k : Fin 128) : ridx_main_v0 i k = ix2 k (Cert.Spec.lane i) :=
  funext fun a => Fin.ext (by match a with | ⟨0, _⟩ => rfl | ⟨1, _⟩ => rfl)

theorem lidx1_eq (i : S8192x64.Idx) (k : Fin 8192) : lidx_main_v1 i k = ix2 (Cert.Spec.row i) k :=
  funext fun a => Fin.ext (by match a with | ⟨0, _⟩ => rfl | ⟨1, _⟩ => rfl)

theorem ridx1_eq (i : S8192x64.Idx) (k : Fin 8192) : ridx_main_v1 i k = ix2 k (Cert.Spec.lane i) :=
  funext fun a => Fin.ext (by match a with | ⟨0, _⟩ => rfl | ⟨1, _⟩ => rfl)

theorem lidx5_eq (i : S8192x64.Idx) (k : Fin 8192) : lidx_main_v5 i k = ix2 (Cert.Spec.row i) k :=
  funext fun a => Fin.ext (by match a with | ⟨0, _⟩ => rfl | ⟨1, _⟩ => rfl)

theorem ridx5_eq (i : S8192x64.Idx) (k : Fin 8192) : ridx_main_v5 i k = ix2 k (Cert.Spec.lane i) :=
  funext fun a => Fin.ext (by match a with | ⟨0, _⟩ => rfl | ⟨1, _⟩ => rfl)

/-- The filter broadcast along the rows is read at the column of the entry. -/
theorem bidx_eq (r k : Fin 8192) :
    idx_main_v2 (idx_main_v3 (ix2 r k : S8192x8192.Idx)) = ix1 k :=
  funext fun a => Fin.ext (by match a with | ⟨0, _⟩ => rfl)

/-! ## The stages -/

/-- The first product is T = x · w. -/
theorem v0_eq (x0 : (⟨S8192x128, .f32⟩ : BufTy).Contents (Elt Ideal)) (x1 : (⟨S128x64, .f32⟩ : BufTy).Contents (Elt Ideal)) :
    val_main_v0 (F := Ideal) x0 x1 = Cert.Spec.T x0 x1 := by
  funext i
  rw [val_main_v0_apply]
  unfold Cert.Spec.T Cert.Spec.mm
  refine Finset.sum_congr rfl fun k _ => ?_
  rw [lidx0_eq, ridx0_eq]

/-- The second product is B · T. -/
theorem v1_eq (x0 : (⟨S8192x128, .f32⟩ : BufTy).Contents (Elt Ideal)) (x1 : (⟨S128x64, .f32⟩ : BufTy).Contents (Elt Ideal))
    (x4 : (⟨S8192x8192, .f32⟩ : BufTy).Contents (Elt Ideal)) :
    val_main_v1 (F := Ideal) x0 x1 x4 = Cert.Spec.mm x4 (Cert.Spec.T x0 x1) := by
  funext i
  rw [val_main_v1_apply, v0_eq]
  unfold Cert.Spec.mm
  refine Finset.sum_congr rfl fun k _ => ?_
  rw [lidx1_eq, ridx1_eq]

/-- The scaled left factor: A with its column k multiplied by f[k]. -/
theorem v4_at (x2 : (⟨S8192, .f32⟩ : BufTy).Contents (Elt Ideal)) (x3 : (⟨S8192x8192, .f32⟩ : BufTy).Contents (Elt Ideal))
    (r k : Fin 8192) :
    val_main_v4 (F := Ideal) x2 x3 (ix2 r k) = x3 (ix2 r k) * x2 (ix1 k) := by
  rw [val_main_v4_apply, val_main_v3_apply, val_main_v2_apply, bidx_eq]
  rfl

/-- The reference's result is the arrangement R of the specification. -/
theorem ref_eq_R (x0 : (⟨Cert.ReferenceIdeal.S8192x128, .f32⟩ : BufTy).Contents (Elt Ideal))
    (x1 : (⟨Cert.ReferenceIdeal.S128x64, .f32⟩ : BufTy).Contents (Elt Ideal))
    (x2 : (⟨Cert.ReferenceIdeal.S8192, .f32⟩ : BufTy).Contents (Elt Ideal))
    (x3 x4 : (⟨Cert.ReferenceIdeal.S8192x8192, .f32⟩ : BufTy).Contents (Elt Ideal)) :
    Cert.ReferenceIdeal.Read.val_main_v5 (F := Ideal) x0 x1 x2 x3 x4 = Cert.Spec.R x0 x1 x2 x3 x4 := by
  funext i
  rw [val_main_v5_apply, v1_eq]
  unfold Cert.Spec.R
  refine Finset.sum_congr rfl fun k _ => ?_
  rw [lidx5_eq, ridx5_eq, v4_at]

end Cert.ReferenceIdeal.RefValue

end
-- ==== Proof.lean ====
/-
  The proof of `Cert.Claim`: frame_Kernel ∧ frame_KernelIdeal ∧ frame_ReferenceIdeal ∧ preserves_Kernel_KernelIdeal ∧
  algebraic_KernelIdeal_ReferenceIdeal, for the wavelet graph convolution
      out = A · (diag(f) · (B · (x · w)))          (the kernel, three launches)
  against
      out = (A ∘ f[None, :]) · (B · (x · w))       (the reference).
  The kernel's program is three pipelined regions with a host reshape between the first two; each of its frames (at the
  word-level instance and at the ideal one) is the run of those four items in order, each region's body run point by
  point (Proof/Kernel/Run.lean, Proof/KernelIdeal/Run.lean). At the ideal instance the run also names the result's array,
  which is Spec.G of the arguments (Proof/Value/Final.lean): region 0 leaves T = x · w, region 1 accumulates B · T over
  four blocks of the contraction axis and scales row n by f[n], region 2 accumulates A · S the same way. The reference's
  run is the generated one, read index by index as Spec.R (Proof/RefValue.lean). G = R because the product of extended
  reals is commutative and associative (Proof/Spec.lean, G_eq_R): no finiteness is used. The idealization rewrote nothing,
  so `preserves` is `True`.
-/
import proofs.«141350_j68341519613981_1_alg».proof.Defs
import proofs.«141350_j68341519613981_1_alg».proof.Proof.Gen.Kernel
import proofs.«141350_j68341519613981_1_alg».proof.Proof.Gen.KernelIdeal
import proofs.«141350_j68341519613981_1_alg».proof.Proof.Gen.ReferenceIdeal
import proofs.«141350_j68341519613981_1_alg».proof.Proof.Gen.Pre_finite_inputs
import proofs.«141350_j68341519613981_1_alg».proof.Proof.Gen.ReferenceIdeal.Run
import proofs.«141350_j68341519613981_1_alg».proof.Proof.Gen.ReferenceIdeal.Read
import proofs.«141350_j68341519613981_1_alg».proof.Proof.Kernel.Run
import proofs.«141350_j68341519613981_1_alg».proof.Proof.KernelIdeal.Run
import proofs.«141350_j68341519613981_1_alg».proof.Proof.Value.Final
import proofs.«141350_j68341519613981_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at G of the arguments: the kernel's by its named run, the reference's by its
    generated run read as R, and G = R. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1.trans (Cert.KernelIdeal.Val.result_eq m c), (h c).2⟩)
      (Cert.KernelIdeal.Fr.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.ref_eq_R, ← Cert.Spec.G_eq_R,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
